-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x300 : Shape := ⟨2, ![800000, 300]⟩
abbrev S64x64 : Shape := ⟨2, ![64, 64]⟩
abbrev S64 : Shape := ⟨1, ![64]⟩
abbrev S300x64 : Shape := ⟨2, ![300, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x300 : S_.BroadcastsInDim S800000x300 (![] : Fin 0 → Fin S800000x300.rank)
  reducesTo_S800000x300_S_d0_1 : S800000x300.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S300x64 : S_.BroadcastsInDim S300x64 (![] : Fin 0 → Fin S300x64.rank)
  reducesTo_S300x64_S_d0_1 : S300x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v64 : IVec S_ 1) (main_v68 : IVec S800000 1) : IVec S_ 1 :=
  let main_c_25 : IVec S_ 1 := constantI S_ 1 1#1
  let main_v69 : IVec S_ 1 := (fun x v => Host.reduce IntOp.andi x v reducesTo_S800000_S_d0 h_S_) main_v68 main_c_25
  let main_v70 : IVec S_ 1 := andi main_v64 main_v69
  main_v70

def fn_part3 {F : FTy → Type} [FloatOps F] (main_arg1 : IVec S2x800000 32) (main_arg12 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 4294917296#32
  let main_v61 : IVec S800000 32 := broadcastInDim S800000 ![] bcast_S_S800000 main_c_22
  let main_v62 : IVec S800000 1 := cmpi .sge main_v60 main_v61
  let main_c_23 : IVec S_ 1 := constantI S_ 1 1#1
  let main_v63 : IVec S_ 1 := (fun x v => Host.reduce IntOp.andi x v reducesTo_S800000_S_d0 h_S_) main_v62 main_c_23
  let main_v64 : IVec S_ 1 := andi main_v58 main_v63
  let main_v65 : IVec S1x800000 32 := (extractStridedSlice S1x800000 ![0, 0] · slices_S2x800000_S1x800000_0_0) main_arg1
  let main_v66 : IVec S800000 32 := shapeCast S800000 main_v65 shapeCasts_S1x800000_S800000
  let main_c_24 : IVec S_ 32 := constantI S_ 32 50000#32
  let main_v67 : IVec S800000 32 := broadcastInDim S800000 ![] bcast_S_S800000 main_c_24
  let main_v68 : IVec S800000 1 := cmpi .slt main_v66 main_v67
  fn_part4 (F := F) main_v64 main_v68

def fn_part2 {F : FTy → Type} [FloatOps F] (main_arg1 : IVec S2x800000 32) (main_arg8 : FVec F S64 .f32) (main_arg9 : FVec F S64x64 .f32) (main_arg10 : FVec F S64 .f32) (main_arg11 : FVec F S64x64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg1 main_arg12 main_v48 main_v49 main_v50

def fn_part1 {F : FTy → Type} [FloatOps F] (main_arg1 : IVec S2x800000 32) (main_arg5 : FVec F S300x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S300x64 .f32 := Host.absf main_arg5
  let main_cst_6 : FVec F S_ .f32 := constant S_ .f32 0x7F800000#32
  let main_v20 : FVec F S300x64 .f32 := broadcastInDim S300x64 ![] bcast_S_S300x64 main_cst_6
  let main_v21 : IVec S300x64 1 := cmpf .olt main_v19 main_v20
  let main_c_7 : IVec S_ 1 := constantI S_ 1 1#1
  let main_v22 : IVec S_ 1 := (fun x v => Host.reduce IntOp.andi x v reducesTo_S300x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x64 .f32) (main_arg1 : IVec S2x800000 32) (main_arg2 : FVec F S800000x300 .f32) (main_arg3 : FVec F S64x64 .f32) (main_arg4 : FVec F S64 .f32) (main_arg5 : FVec F S300x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x300 .f32 := Host.absf main_arg2
  let main_cst_0 : FVec F S_ .f32 := constant S_ .f32 0x7F800000#32
  let main_v5 : FVec F S800000x300 .f32 := broadcastInDim S800000x300 ![] bcast_S_S800000x300 main_cst_0
  let main_v6 : IVec S800000x300 1 := cmpf .olt main_v4 main_v5
  let main_c_1 : IVec S_ 1 := constantI S_ 1 1#1
  let main_v7 : IVec S_ 1 := (fun x v => Host.reduce IntOp.andi x v reducesTo_S800000x300_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S800000x300 : Shape := ⟨2, ![800000, 300]⟩
abbrev S64x64 : Shape := ⟨2, ![64, 64]⟩
abbrev S64 : Shape := ⟨1, ![64]⟩
abbrev S300x64 : Shape := ⟨2, ![300, 64]⟩
abbrev S1x800000 : Shape := ⟨2, ![1, 800000]⟩
abbrev S800000 : Shape := ⟨1, ![800000]⟩
abbrev S5000x64 : Shape := ⟨2, ![5000, 64]⟩
abbrev S1x64 : Shape := ⟨2, ![1, 64]⟩
abbrev S800000x64 : Shape := ⟨2, ![800000, 64]⟩
abbrev S5000x300 : Shape := ⟨2, ![5000, 300]⟩
abbrev S_ : Shape := ⟨0, ![]⟩
abbrev S800000x1 : Shape := ⟨2, ![800000, 1]⟩
abbrev S1 : Shape := ⟨1, ![1]⟩
abbrev S1x1 : Shape := ⟨2, ![1, 1]⟩

abbrev nBuf : Space → Nat
  | .hbm => 48
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x300, .f32⟩
  | .hbm, ⟨3, _⟩ => ⟨S64x64, .f32⟩
  | .hbm, ⟨4, _⟩ => ⟨S64, .f32⟩
  | .hbm, ⟨5, _⟩ => ⟨S300x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S800000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x64, .f32⟩
  | .hbm, ⟨38, _⟩ => ⟨S800000x64, .i1⟩
  | .hbm, ⟨39, _⟩ => ⟨S_, .f32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x300, .f32⟩
  | .local _ .vmem, ⟨7, _⟩ => ⟨S5000x300, .f32⟩
  | .local _ .vmem, ⟨8, _⟩ => ⟨S300x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x300_S5000x300_0_0 : ∀ a, (![0, 0] : Fin 2 → Nat) a + S5000x300.size a ≤ S5000x300.size a
  h_S5000x300 : 0 < S5000x300.numel
  inb_S300x64_S300x64_0_0 : ∀ a, (![0, 0] : Fin 2 → Nat) a + S300x64.size a ≤ S300x64.size a
  h_S300x64 : 0 < S300x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  dot_S5000x300_S300x64_S5000x64_1_0_0_1_n_n_wf : DotDims.WF S5000x300 S300x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x300.size a ≤ S800000x300.size a
  hwx1_0 : ∀ i : grid1.Coords, EltTy.bits .f32 = 32 ∨ (Rect.block (s := S800000x300) S5000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x64.size a ≤ S300x64.size a
  hwx1_1 : ∀ i : grid1.Coords, EltTy.bits .f32 = 32 ∨ (Rect.block (s := S300x64) S300x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S800000x64.size a
  hwx1_5 : ∀ i : grid1.Coords, EltTy.bits .f32 = 32 ∨ (Rect.block (s := S800000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x300_S300x64_S5000x64_1_0_0_1_n_n : DotDims S5000x300 S300x64 S5000x64 where
  lhsContracting := [1]
  rhsContracting := [0]
  lhsNonContracting := [0]
  rhsNonContracting := [1]
  lhsBatch := []
  rhsBatch := []
  wf := dot_S5000x300_S300x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S300x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v10) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x300 : Shape := ⟨2, ![800000, 300]⟩
abbrev S64x64 : Shape := ⟨2, ![64, 64]⟩
abbrev S64 : Shape := ⟨1, ![64]⟩
abbrev S300x64 : Shape := ⟨2, ![300, 64]⟩
abbrev S1x800000 : Shape := ⟨2, ![1, 800000]⟩
abbrev S800000 : Shape := ⟨1, ![800000]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩

abbrev nBuf : Space → Nat
  | .hbm => 103
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x300, .f32⟩
  | .hbm, ⟨3, _⟩ => ⟨S64x64, .f32⟩
  | .hbm, ⟨4, _⟩ => ⟨S64, .f32⟩
  | .hbm, ⟨5, _⟩ => ⟨S300x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S800000x64, .f32⟩
  | .hbm, ⟨22, _⟩ => ⟨S1x64, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S800000x64, .f32⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S800000x64, .i1⟩
  | .hbm, ⟨31, _⟩ => ⟨S800000x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S800000x64, .f32⟩
  | .hbm, ⟨48, _⟩ => ⟨S800000x64, .f32⟩
  | .hbm, ⟨49, _⟩ => ⟨S800000x64, .f32⟩
  | .hbm, ⟨50, _⟩ => ⟨S800000x64, .f32⟩
  | .hbm, ⟨51, _⟩ => ⟨S800000x64, .i1⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .i1⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_v19 : Ref sig .tc := ⟨.hbm, 59, rfl⟩
abbrev main_cst_0 : Ref sig .tc := ⟨.hbm, 60, rfl⟩
abbrev main_v20 : Ref sig .tc := ⟨.hbm, 61, rfl⟩
abbrev main_v21 : Ref sig .tc := ⟨.hbm, 62, rfl⟩
abbrev main_c : Ref sig .tc := ⟨.hbm, 63, rfl⟩
abbrev main_v22 : Ref sig .tc := ⟨.hbm, 64, rfl⟩
abbrev main_v23 : Ref sig .tc := ⟨.hbm, 65, rfl⟩
abbrev main_c_1 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_v37 : Ref sig .tc := ⟨.hbm, 94, rfl⟩
abbrev main_cst_3 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S50000x64_S64x64_S50000x64_1_0_0_1_n_n_wf : DotDims.WF S50000x64 S64x64 S50000x64 [1] [0] [0] [1] [] []
  dot_S800000x300_S300x64_S800000x64_1_0_0_1_n_n_wf : DotDims.WF S800000x300 S300x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x300_S300x64_S800000x64_1_0_0_1_n_n : DotDims S800000x300 S300x64 S800000x64 where
  lhsContracting := [1]
  rhsContracting := [0]
  lhsNonContracting := [0]
  rhsNonContracting := [1]
  lhsBatch := []
  rhsBatch := []
  wf := dot_S800000x300_S300x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics both programs compute, one output row at a time, on the extended reals.

  A node or edge row is a vector of 64 (or 300) extended reals. A dense layer sends a row `x` to the row
  `q ↦ (∑ k, x k · w (k, q)) + b q`. The activation is the shifted softplus
  `ssp y = max y 0 + log1p (exp (-|y|)) - ln2`, where `|y|` is read as `max (y - 0) (-(y - 0))` (the form both programs
  print) and `ln2` is the f32 word nearest `log 2`, the same word in both programs.

  * `filterRow`: an edge's filter row from its 300 radial-basis values: two dense layers, each followed by `ssp`.
  * `updateRow`: a node's output row from its aggregated message row `h` and its input row `x`:
    dense, `ssp`, dense, plus `x`.
-/
import Idealize.ShloMosaic.PureOps.Ideal
import Idealize.ShloMosaic.Lib.ValueIdx

noncomputable section

open scoped BigOperators

namespace Cert.Schnet

open Idealize.ShloMosaic Idealize.ShloMosaic.ValueIdx

/-- `max y 0 + log1p (exp (-|y|))`, the overflow-free form of `log (1 + exp y)`. -/
def softplus (y : EReal) : EReal :=
  max y 0 + Ideal.log1p (Ideal.exp (-(max (y - 0) (-(y - 0)))))

/-- Softplus shifted by the f32 word nearest `log 2`. -/
def ssp (y : EReal) : EReal := softplus y - Ideal.ofBits .f32 0x3F317218#32

/-- Output feature `q` of a dense layer with 64 inputs, on one row. -/
def dense64 (x : Fin 64 → EReal) (w : (⟨2, ![64, 64]⟩ : Shape).Idx → EReal) (b : (⟨1, ![64]⟩ : Shape).Idx → EReal)
    (q : Fin 64) : EReal :=
  (∑ k : Fin 64, x k * w (ix2 k q)) + b (ix1 q)

/-- Output feature `q` of a dense layer with 300 inputs, on one row. -/
def dense300 (x : Fin 300 → EReal) (w : (⟨2, ![300, 64]⟩ : Shape).Idx → EReal) (b : (⟨1, ![64]⟩ : Shape).Idx → EReal)
    (q : Fin 64) : EReal :=
  (∑ k : Fin 300, x k * w (ix2 k q)) + b (ix1 q)

/-- An edge's filter row: `ssp (dense (ssp (dense rbf)))`. -/
def filterRow (r : Fin 300 → EReal) (fw1 : (⟨2, ![300, 64]⟩ : Shape).Idx → EReal) (fb1 : (⟨1, ![64]⟩ : Shape).Idx → EReal)
    (fw2 : (⟨2, ![64, 64]⟩ : Shape).Idx → EReal) (fb2 : (⟨1, ![64]⟩ : Shape).Idx → EReal) (q : Fin 64) : EReal :=
  ssp (dense64 (fun k => ssp (dense300 r fw1 fb1 k)) fw2 fb2 q)

/-- A node's output row: `dense (ssp (dense h)) + x`. -/
def updateRow (h x : Fin 64 → EReal) (w2 : (⟨2, ![64, 64]⟩ : Shape).Idx → EReal) (b2 : (⟨1, ![64]⟩ : Shape).Idx → EReal)
    (w3 : (⟨2, ![64, 64]⟩ : Shape).Idx → EReal) (b3 : (⟨1, ![64]⟩ : Shape).Idx → EReal) (q : Fin 64) : EReal :=
  dense64 (fun k => ssp (dense64 h w2 b2 k)) w3 b3 q + x q

/-- A float compared with itself for "not equal" is never so: the extended reals have no NaN. -/
theorem cmp_ne_self (p : CmpFPredicate) (hp : p = .one ∨ p = .une) (t : EReal) : Ideal.cmp p t t = 0#1 := by
  rcases hp with rfl | rfl <;> simp [Ideal.cmp]

end Cert.Schnet

end
-- ==== Proof.KPay.lean ====
/-
  The three kernel bodies' stored values, read at one element on the extended reals.

  Each body stores one [5000, 64] block computed from the blocks it loaded. Read at row `p`, column `q`:
  the first body's value is a dense layer of row `p` of its input block; the second's is the filter row of
  row `p` of its radial-basis block; the third's is the update row of row `p` of its message block and of its
  residual block. A change of float format is the identity here, a matrix product into a zero accumulator is
  the plain sum over the contracted axis, and the "not equal to itself" guard of softplus never fires.
-/
import proofs.«404692_j5506148073800_2_alg».proof.Proof.Gen.KernelIdeal.Skeleton
import proofs.«404692_j5506148073800_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Schnet Idealize.ShloMosaic Idealize.ShloMosaic.ValueIdx

/-! ## The two block matrix products at one element

For either product the dimension numbers contract the left operand's axis 1 with the right operand's axis 0 and keep
the left operand's axis 0 and the right operand's axis 1. So at output index `i` and contraction index `c` the left
operand is read at `(i 0, c)` and the right one at `(c, i 1)`: four coordinate facts per product, then the sum over
the one-axis contraction index is re-indexed by its coordinate. -/

private theorem lhs64_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
private theorem lhs64_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
private theorem rhs64_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
private theorem rhs64_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000,64] × [64,64] block product into the zero block, at `(p, q)`: the sum over the shared axis. The operands'
    formats are free: on the extended reals a narrowed operand is the same function. -/
private theorem matmul64_apply {φ₁ φ₂ : FTy} (a : FVec Ideal S5000x64 φ₁) (b : FVec Ideal S64x64 φ₂)
    (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs64_0 _ _
      | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs64_0 _ _).trans hk
      | ⟨1, _⟩ => exact rhs64_1 _ _)
  rw [el, er]

private theorem lhs300_0 (i : S5000x64.Idx) (c : dot_S5000x300_S300x64_S5000x64_1_0_0_1_n_n.contr.Idx) :
    (dot_S5000x300_S300x64_S5000x64_1_0_0_1_n_n.lhsIdx i c 0).val = (i 0).val := by
  unfold DotDims.lhsIdx
  rw [dif_neg (show ¬(0 : Fin S5000x300.rank) ∈ dot_S5000x300_S300x64_S5000x64_1_0_0_1_n_n.lhsBatch by decide),
    dif_pos (show (0 : Fin S5000x300.rank) ∈ dot_S5000x300_S300x64_S5000x64_1_0_0_1_n_n.lhsNonContracting by decide)]
  rfl
private theorem lhs300_1 (i : S5000x64.Idx) (c : dot_S5000x300_S300x64_S5000x64_1_0_0_1_n_n.contr.Idx) :
    (dot_S5000x300_S300x64_S5000x64_1_0_0_1_n_n.lhsIdx i c 1).val = (c ⟨0, by decide⟩).val :=
  dot_S5000x300_S300x64_S5000x64_1_0_0_1_n_n.lhsIdx_val_of_single rfl i c
private theorem rhs300_0 (i : S5000x64.Idx) (c : dot_S5000x300_S300x64_S5000x64_1_0_0_1_n_n.contr.Idx) :
    (dot_S5000x300_S300x64_S5000x64_1_0_0_1_n_n.rhsIdx i c 0).val = (c ⟨0, by decide⟩).val :=
  dot_S5000x300_S300x64_S5000x64_1_0_0_1_n_n.rhsIdx_val_of_single rfl i c
private theorem rhs300_1 (i : S5000x64.Idx) (c : dot_S5000x300_S300x64_S5000x64_1_0_0_1_n_n.contr.Idx) :
    (dot_S5000x300_S300x64_S5000x64_1_0_0_1_n_n.rhsIdx i c 1).val = (i 1).val := by
  unfold DotDims.rhsIdx
  rw [dif_neg (show ¬(1 : Fin S300x64.rank) ∈ dot_S5000x300_S300x64_S5000x64_1_0_0_1_n_n.rhsBatch by decide),
    dif_pos (show (1 : Fin S300x64.rank) ∈ dot_S5000x300_S300x64_S5000x64_1_0_0_1_n_n.rhsNonContracting by decide)]
  rfl

/-- A [5000,300] × [300,64] block product into the zero block, at `(p, q)`: the sum over the shared axis. -/
private theorem matmul300_apply {φ₁ φ₂ : FTy} (a : FVec Ideal S5000x300 φ₁) (b : FVec Ideal S300x64 φ₂)
    (p : Fin 5000) (q : Fin 64) :
    matmul dot_S5000x300_S300x64_S5000x64_1_0_0_1_n_n none a b (constant S5000x64 .f32 0x00000000#32) (ix2 p q)
      = ∑ k : Fin 300, a (ix2 p k) * b (ix2 k q) := by
  simp only [matmul]
  rw [Ideal.matmul_constant_zero_apply, ← Equiv.sum_comp (contrEquiv1 dot_S5000x300_S300x64_S5000x64_1_0_0_1_n_n 300 rfl rfl).symm]
  refine Finset.sum_congr rfl fun k _ => ?_
  have hk := contrEquiv1_symm_val dot_S5000x300_S300x64_S5000x64_1_0_0_1_n_n 300 rfl rfl k
  have el : dot_S5000x300_S300x64_S5000x64_1_0_0_1_n_n.lhsIdx (ix2 p q) ((contrEquiv1 dot_S5000x300_S300x64_S5000x64_1_0_0_1_n_n 300 rfl rfl).symm k) = ix2 p k :=
    funext fun ax => Fin.ext (by
      match ax with
      | ⟨0, _⟩ => exact lhs300_0 _ _
      | ⟨1, _⟩ => exact (lhs300_1 _ _).trans hk)
  have er : dot_S5000x300_S300x64_S5000x64_1_0_0_1_n_n.rhsIdx (ix2 p q) ((contrEquiv1 dot_S5000x300_S300x64_S5000x64_1_0_0_1_n_n 300 rfl rfl).symm k) = ix2 k q :=
    funext fun ax => Fin.ext (by
      match ax with
      | ⟨0, _⟩ => exact (rhs300_0 _ _).trans hk
      | ⟨1, _⟩ => exact rhs300_1 _ _)
  rw [el, er]

/-! ## Layout operations at one element -/

/-- The bias row: a [64] vector cast to [1,64] and broadcast to [5000,64] reads, at `(p, q)`, the vector at `q`. -/
private theorem bias_apply {α : Type} (b : S64.Idx → α) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-- A block cast to its own shape reads the block: the row-major position of an index is unchanged. -/
private theorem shapeCast_self_apply {α : Type} (x : S5000x64.Idx → α) (i : S5000x64.Idx) :
    shapeCast S5000x64 x shapeCasts_S5000x64_S5000x64 i = x i :=
  shapeCast_apply x _ i i rfl

/-! ## The remaining pointwise operations at an index, on the extended reals (definitional) -/

private theorem absf_apply {s : Shape} {φ : FTy} (a : FVec Ideal s φ) (i : s.Idx) : absf a i = max (a i) (-(a i)) := rfl
private theorem exp_apply {s : Shape} {φ : FTy} (a : FVec Ideal s φ) (i : s.Idx) : exp a i = Ideal.exp (a i) := rfl
private theorem log1p_apply {s : Shape} {φ : FTy} (a : FVec Ideal s φ) (i : s.Idx) : log1p a i = Ideal.log1p (a i) := rfl

/-! ## The printed shifted softplus at one element

The kernel prints `select (t ≠ t) (y + 0) (max y 0 + log1p (exp (0 - |t|))) - ln2` with `t = y - 0` and
`|t| = max t (-t)`. On the extended reals `t ≠ t` never holds, so the select takes its second branch; the zero word
reads as `0` and `0 - |t| = -|t|`. What is left is `ssp y` as the specification writes it. -/

private theorem ssp_chain (y : EReal) :
    Scalar.select (FloatOps.cmpf (F := Ideal) (φ := .f32) .one (y - FloatOps.ofBits (F := Ideal) .f32 0x00000000#32)
          (y - FloatOps.ofBits (F := Ideal) .f32 0x00000000#32))
        (y + FloatOps.ofBits (F := Ideal) .f32 0x00000000#32)
        (max y (FloatOps.ofBits (F := Ideal) .f32 0x00000000#32)
          + Ideal.log1p (Ideal.exp (FloatOps.ofBits (F := Ideal) .f32 0x00000000#32
              - max (y - FloatOps.ofBits (F := Ideal) .f32 0x00000000#32)
                  (-(y - FloatOps.ofBits (F := Ideal) .f32 0x00000000#32)))))
      - FloatOps.ofBits (F := Ideal) .f32 0x3F317218#32 = ssp y := by
  rw [show FloatOps.cmpf (F := Ideal) (φ := .f32) .one (y - FloatOps.ofBits (F := Ideal) .f32 0x00000000#32)
          (y - FloatOps.ofBits (F := Ideal) .f32 0x00000000#32)
        = Ideal.cmp .one (y - FloatOps.ofBits (F := Ideal) .f32 0x00000000#32)
          (y - FloatOps.ofBits (F := Ideal) .f32 0x00000000#32) from rfl,
    cmp_ne_self .one (.inl rfl), select_zero]
  simp only [Ideal.ofBits_def, Ideal.ofBits_zero_f32, zero_sub]
  rfl

/-! ## The three stored values -/

/-- The node-linear body's stored value at `(p, q)`: a dense layer of row `p`. -/
theorem linear_apply (v0 : Vec Ideal S5000x64 .f32) (v2 : Vec Ideal S64x64 .f32) (v5 : Vec Ideal S64 .f32)
    (p : Fin 5000) (q : Fin 64) :
    k0_pay1 (F := Ideal) v0 v2 v5 (ix2 p q) = dense64 (fun k => v0 (ix2 p k)) v2 v5 q := by
  unfold k0_pay1 dense64
  simp only [addf_apply, matmul64_apply, bias_apply, truncf_apply]

/-- The filter body's second dense layer at `(p, q)`, before its activation: the first dense layer and its shifted
    softplus are read under the second product's sum, one inner row entry per summand. -/
private theorem pay2_apply (v0 : Vec Ideal S5000x300 .f32) (v2 : Vec Ideal S300x64 .f32) (v5 : Vec Ideal S64 .f32)
    (v26 : Vec Ideal S64x64 .f32) (v29 : Vec Ideal S64 .f32) (p : Fin 5000) (q : Fin 64) :
    k1_pay2 (F := Ideal) v0 v2 v5 v26 v29 (ix2 p q)
      = dense64 (fun k => ssp (dense300 (fun j => v0 (ix2 p j)) v2 v5 k)) v26 v29 q := by
  unfold k1_pay2 dense64 dense300
  simp only [addf_apply, subf_apply, maximumf_apply, select_apply, cmpf_apply, truncf_apply, broadcast_apply,
    absf_apply, exp_apply, log1p_apply, matmul64_apply, matmul300_apply, bias_apply, ssp_chain]

/-- The filter body's stored value at `(p, q)`: the filter row of row `p` of the radial-basis block. -/
theorem filter_apply (v0 : Vec Ideal S5000x300 .f32) (v2 : Vec Ideal S300x64 .f32) (v5 : Vec Ideal S64 .f32)
    (v26 : Vec Ideal S64x64 .f32) (v29 : Vec Ideal S64 .f32) (p : Fin 5000) (q : Fin 64) :
    k1_pay1 (F := Ideal) (k1_pay3 v0 v2 v5 v26 v29) (k1_pay5 v0 v2 v5 v26 v29) (k1_pay6 v0 v2 v5 v26 v29)
        (k1_pay7 v0 v2 v5 v26 v29) (ix2 p q)
      = filterRow (fun k => v0 (ix2 p k)) v2 v5 v26 v29 q := by
  unfold k1_pay1 k1_pay3 k1_pay5 k1_pay6 k1_pay7 k1_pay4 filterRow
  simp only [addf_apply, subf_apply, maximumf_apply, select_apply, cmpf_apply, broadcast_apply,
    absf_apply, exp_apply, log1p_apply, pay2_apply, ssp_chain]

/-- The node-update body's stored value at `(p, q)`: the update row of row `p` of the message block `v0` and of
    the residual block `v34`. -/
theorem update_apply (v0 : Vec Ideal S5000x64 .f32) (v3 : Vec Ideal S64x64 .f32) (v6 : Vec Ideal S64 .f32)
    (v27 : Vec Ideal S64x64 .f32) (v30 : Vec Ideal S64 .f32) (v34 : Vec Ideal S5000x64 .f32) (p : Fin 5000) (q : Fin 64) :
    k2_pay1 (F := Ideal) v0 v3 v6 v27 v30 v34 (ix2 p q)
      = updateRow (fun k => v0 (ix2 p k)) (fun k => v34 (ix2 p k)) v3 v6 v27 v30 q := by
  unfold k2_pay1 updateRow dense64
  simp only [addf_apply, subf_apply, maximumf_apply, select_apply, cmpf_apply, truncf_apply, broadcast_apply,
    absf_apply, exp_apply, log1p_apply, matmul64_apply, bias_apply, shapeCast_self_apply, ssp_chain]

end Cert.KernelIdeal.Pay

end
-- ==== Proof.RegionLinear.lean ====
/-
  The first pallas_call's output array, whole, as a function of the arrays the region finds.

  Grid point `t` of 10 stages rows 5000·t … 5000·t + 4999 of the node array, the whole weight matrix and the whole
  bias, and writes back rows 5000·t … of the output. So row `r` of the output array ends as the dense layer of row
  `r` of the node array: the blocks tile the 50000 rows, block `r / 5000` covers row `r`.
-/
import proofs.«404692_j5506148073800_2_alg».proof.Proof.Gen.KernelIdeal.Frame
import proofs.«404692_j5506148073800_2_alg».proof.Proof.KPay
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Cert.Schnet Idealize.ShloMosaic Idealize.ShloMosaic.TcCoe Idealize.SL.Sem
open Idealize.ShloMosaic.ValueIdx
open Idealize.ShloMosaic.Pipeline (Dat)

/- The TensorCore's buffer contents when the region is entered. -/
variable (V : (c : Dev nD) → (b : Ref sig .tc) → Buf (Elt Ideal) ((c : Thread nD τ).loc b))

/-- The zero offsets of a whole-block access, as the constant function. -/
private theorem zeros2 : (![0, 0] : Fin 2 → Nat) = fun _ => 0 := funext fun a => by fin_cases a <;> rfl
private theorem zeros1 : (![0] : Fin 1 → Nat) = fun _ => 0 := funext fun a => by fin_cases a; rfl

set_option maxHeartbeats 400000 in
/-- The index maps over the 10 grid points: the node window and the output window are at row block `t`, column
    block 0; the weight and bias windows stay at block 0. -/
private theorem linear_index_facts : ∀ t : Fin cfg0.N,
    win0_0.index t (0 : Fin 2) = t.val
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

set_option maxHeartbeats 400000 in
/-- Entry `y` of the node window's block at point `t` is the node array's entry at row `5000·t + y₀`, column `y₁`. -/
private theorem node_block_apply (c : Dev nD) (t : Fin cfg0.N) (y : S5000x64.Idx) (i : S50000x64.Idx)
    (h0 : (i 0).val = t.val * 5000 + (y 0).val) (h1 : (i 1).val = (y 1).val) :
    iblk0 V c 0 t y = V c main_arg0 i := by
  obtain ⟨e0, e1, -⟩ := linear_index_facts t
  show V c main_arg0 (((cfg0.win 0).blk t).view.emb y) = V c main_arg0 i
  congr 1
  funext a
  apply Fin.ext
  match a with
  | ⟨0, _⟩ => show win0_0.index t (0 : Fin 2) * 5000 + 1 * (y 0).val = (i 0).val; omega
  | ⟨1, _⟩ => show win0_0.index t (1 : Fin 2) * 64 + 1 * (y 1).val = (i 1).val; omega

set_option maxHeartbeats 400000 in
/-- The weight window's one block is the whole weight matrix. -/
private theorem weight_block (c : Dev nD) (t : Fin cfg0.N) : iblk0 V c 1 t = V c main_arg3 := by
  obtain ⟨-, -, e2, e3, -⟩ := linear_index_facts t
  funext y
  show V c main_arg3 (((cfg0.win 1).blk t).view.emb y) = V c main_arg3 y
  congr 1
  funext a
  apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

set_option maxHeartbeats 400000 in
/-- The bias window's one block is the whole bias. -/
private theorem bias_block (c : Dev nD) (t : Fin cfg0.N) : iblk0 V c 2 t = V c main_arg4 := by
  obtain ⟨-, -, -, -, e4, -⟩ := linear_index_facts t
  funext y
  show V c main_arg4 (((cfg0.win 2).blk t).view.emb y) = V c main_arg4 y
  congr 1
  funext a
  apply Fin.ext
  match a with
  | ⟨0, _⟩ => show win0_2.index t (0 : Fin 1) * 64 + 1 * (y 0).val = (y 0).val; omega

/-- A dense layer's output depends only on the row's entries and on the output feature. -/
private theorem dense64_congr {x x' : Fin 64 → EReal} (w : (⟨2, ![64, 64]⟩ : Shape).Idx → EReal)
    (b : (⟨1, ![64]⟩ : Shape).Idx → EReal) {q q' : Fin 64} (hx : ∀ k, x k = x' k) (hq : q = q') :
    dense64 x w b q = dense64 x' w b q' := by
  subst hq; rw [funext hx]

set_option maxHeartbeats 400000 in
/-- What point `t` writes back is block `t` of the row-by-row dense layer of the node array: entry `(p, q)` of the
    stored block is the dense layer of row `p` of the node block, which is row `5000·t + p` of the node array, and
    the output block's entry `(p, q)` sits at row `5000·t + p`, column `q` of the output array. -/
private theorem linear_flushed (c : Dev nD) (t : Fin cfg0.N) :
    (dat0 V c).flushed 3 t = ((cfg0.win 3).blk t).view.read (Elt Ideal)
      (fun i => dense64 (fun k => V c main_arg0 (ix2 (i 0) k)) (V c main_arg3) (V c main_arg4) (i 1)) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S64x64) zeros2,
    View.ld_unit_zero (S := S64) zeros1]
  funext j
  obtain ⟨p, q, rfl⟩ : ∃ (p : Fin 5000) (q : Fin 64), j = ix2 p q := ⟨j 0, j 1, eq_ix2 j⟩
  refine (Pay.linear_apply _ _ _ p q).trans ?_
  rw [weight_block, bias_block]
  obtain ⟨-, -, -, -, -, e5, e6⟩ := linear_index_facts t
  show dense64 _ _ _ q = dense64 (fun k => V c main_arg0 (ix2 ((((cfg0.win 3).blk t).view.emb (ix2 p q)) 0) k))
    (V c main_arg3) (V c main_arg4) ((((cfg0.win 3).blk t).view.emb (ix2 p q)) 1)
  refine dense64_congr _ _ (fun k => node_block_apply V c t (ix2 p k) _ ?_ rfl) (Fin.ext ?_)
  · show win0_3.index t (0 : Fin 2) * 5000 + 1 * p.val = t.val * 5000 + p.val; omega
  · show q.val = win0_3.index t (1 : Fin 2) * 64 + 1 * q.val; omega

/-- An index of the output array is in point `t`'s block iff each coordinate is in the block's range on its axis. -/
private theorem linear_mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v4).slice (win0_3.rect t)).set ↔ _
  rw [View.set_slice_whole, Rect.mem_set_unit]
  exact Iff.rfl

set_option maxHeartbeats 400000 in
/-- Row `r` of the output array lies in the block of point `r / 5000`, and every point writes its block back. -/
private theorem linear_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, e5, e6⟩ := linear_index_facts t
  refine ⟨t, flush0_3 t, ?_⟩
  rw [linear_mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- After the region, its output array is the dense layer of the node array, row by row. -/
theorem linear_array (c : Dev nD) :
    (dat0 V c).arrAt 3 cfg0.N
      = fun i => dense64 (fun k => V c main_arg0 (ix2 (i 0) k)) (V c main_arg3) (V c main_arg4) (i 1) :=
  (dat0 V c).arrAt_eq_of_cover 3 _ (fun t _ => linear_flushed V c t) linear_cover

end Cert.KernelIdeal.RegionValue

end
-- ==== Proof.RegionFilter.lean ====
/-
  The second pallas_call's output array, whole, as a function of the arrays the region finds.

  Grid point `t` of 160 stages rows 5000·t … 5000·t + 4999 of the radial-basis array and the two weight matrices and
  biases whole, and writes back the same rows of the filter array. So row `r` of the filter array ends as the filter
  row of row `r` of the radial-basis array: the blocks tile the 800000 rows, block `r / 5000` covers row `r`.
-/
import proofs.«404692_j5506148073800_2_alg».proof.Proof.Gen.KernelIdeal.Frame
import proofs.«404692_j5506148073800_2_alg».proof.Proof.KPay
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Cert.Schnet Idealize.ShloMosaic Idealize.ShloMosaic.TcCoe Idealize.SL.Sem
open Idealize.ShloMosaic.ValueIdx
open Idealize.ShloMosaic.Pipeline (Dat)

/- The TensorCore's buffer contents when the region is entered. -/
variable (V : (c : Dev nD) → (b : Ref sig .tc) → Buf (Elt Ideal) ((c : Thread nD τ).loc b))

/-- The zero offsets of a whole-block access, as the constant function. -/
private theorem zeros2 : (![0, 0] : Fin 2 → Nat) = fun _ => 0 := funext fun a => by fin_cases a <;> rfl
private theorem zeros1 : (![0] : Fin 1 → Nat) = fun _ => 0 := funext fun a => by fin_cases a; rfl

set_option maxHeartbeats 400000 in
/-- The index maps over the 160 grid points: the radial-basis window and the output window are at row block `t`,
    column block 0; the two weight windows and the two bias windows stay at block 0. -/
private theorem filter_index_facts : ∀ t : Fin cfg1.N,
    win1_0.index t (0 : Fin 2) = t.val
    ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val
    ∧ win1_5.index t (1 : Fin 2) = 0 :=
  (by decide +kernel : ∀ t : Fin grid1.N, _)

set_option maxHeartbeats 400000 in
/-- Entry `y` of the radial-basis window's block at point `t` is the radial-basis array's entry at row
    `5000·t + y₀`, column `y₁`. -/
private theorem rbf_block_apply (c : Dev nD) (t : Fin cfg1.N) (y : S5000x300.Idx) (i : S800000x300.Idx)
    (h0 : (i 0).val = t.val * 5000 + (y 0).val) (h1 : (i 1).val = (y 1).val) :
    iblk1 V c 0 t y = V c main_arg2 i := by
  obtain ⟨e0, e1, -⟩ := filter_index_facts t
  show V c main_arg2 (((cfg1.win 0).blk t).view.emb y) = V c main_arg2 i
  congr 1
  funext a
  apply Fin.ext
  match a with
  | ⟨0, _⟩ => show win1_0.index t (0 : Fin 2) * 5000 + 1 * (y 0).val = (i 0).val; omega
  | ⟨1, _⟩ => show win1_0.index t (1 : Fin 2) * 300 + 1 * (y 1).val = (i 1).val; omega

set_option maxHeartbeats 400000 in
/-- The first weight window's one block is the whole first weight matrix. -/
private theorem weight1_block (c : Dev nD) (t : Fin cfg1.N) : iblk1 V c 1 t = V c main_arg5 := by
  obtain ⟨-, -, e2, e3, -⟩ := filter_index_facts t
  funext y
  show V c main_arg5 (((cfg1.win 1).blk t).view.emb y) = V c main_arg5 y
  congr 1
  funext a
  apply Fin.ext
  match a with
  | ⟨0, _⟩ => show win1_1.index t (0 : Fin 2) * 300 + 1 * (y 0).val = (y 0).val; omega
  | ⟨1, _⟩ => show win1_1.index t (1 : Fin 2) * 64 + 1 * (y 1).val = (y 1).val; omega

set_option maxHeartbeats 400000 in
/-- The first bias window's one block is the whole first bias. -/
private theorem bias1_block (c : Dev nD) (t : Fin cfg1.N) : iblk1 V c 2 t = V c main_arg6 := by
  obtain ⟨-, -, -, -, e4, -⟩ := filter_index_facts t
  funext y
  show V c main_arg6 (((cfg1.win 2).blk t).view.emb y) = V c main_arg6 y
  congr 1
  funext a
  apply Fin.ext
  match a with
  | ⟨0, _⟩ => show win1_2.index t (0 : Fin 1) * 64 + 1 * (y 0).val = (y 0).val; omega

set_option maxHeartbeats 400000 in
/-- The second weight window's one block is the whole second weight matrix. -/
private theorem weight2_block (c : Dev nD) (t : Fin cfg1.N) : iblk1 V c 3 t = V c main_arg7 := by
  obtain ⟨-, -, -, -, -, e5, e6, -⟩ := filter_index_facts t
  funext y
  show V c main_arg7 (((cfg1.win 3).blk t).view.emb y) = V c main_arg7 y
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

set_option maxHeartbeats 400000 in
/-- The second bias window's one block is the whole second bias. -/
private theorem bias2_block (c : Dev nD) (t : Fin cfg1.N) : iblk1 V c 4 t = V c main_arg8 := by
  obtain ⟨-, -, -, -, -, -, -, e7, -⟩ := filter_index_facts t
  funext y
  show V c main_arg8 (((cfg1.win 4).blk t).view.emb y) = V c main_arg8 y
  congr 1
  funext a
  apply Fin.ext
  match a with
  | ⟨0, _⟩ => show win1_4.index t (0 : Fin 1) * 64 + 1 * (y 0).val = (y 0).val; omega

/-- A filter row depends only on the radial-basis row's entries and on the output feature. -/
private theorem filterRow_congr {r r' : Fin 300 → EReal} (fw1 : (⟨2, ![300, 64]⟩ : Shape).Idx → EReal)
    (fb1 : (⟨1, ![64]⟩ : Shape).Idx → EReal) (fw2 : (⟨2, ![64, 64]⟩ : Shape).Idx → EReal)
    (fb2 : (⟨1, ![64]⟩ : Shape).Idx → EReal) {q q' : Fin 64} (hr : ∀ k, r k = r' k) (hq : q = q') :
    filterRow r fw1 fb1 fw2 fb2 q = filterRow r' fw1 fb1 fw2 fb2 q' := by
  subst hq; rw [funext hr]

set_option maxHeartbeats 400000 in
/-- What point `t` writes back is block `t` of the row-by-row filter tensor of the radial-basis array: entry
    `(p, q)` of the stored block is the filter row of row `p` of the radial-basis block, which is row `5000·t + p`
    of the radial-basis array, and the output block's entry `(p, q)` sits at row `5000·t + p`, column `q` of the
    output array. -/
private theorem filter_flushed (c : Dev nD) (t : Fin cfg1.N) :
    (dat1 V c).flushed 5 t = ((cfg1.win 5).blk t).view.read (Elt Ideal)
      (fun i => filterRow (fun k => V c main_arg2 (ix2 (i 0) k)) (V c main_arg5) (V c main_arg6) (V c main_arg7)
          (V c main_arg8) (i 1)) := by
  show (cfg1.win 5).cut (grid1.coords t) ((dat1 V c).after 5 t) = _
  rw [after1_5]
  unfold out1_5
  rw [View.canon_unit_zero zeros2]
  simp only [View.ld_unit_zero (S := S5000x300) zeros2, View.ld_unit_zero (S := S300x64) zeros2,
    View.ld_unit_zero (S := S64x64) zeros2, View.ld_unit_zero (S := S64) zeros1]
  funext j
  obtain ⟨p, q, rfl⟩ : ∃ (p : Fin 5000) (q : Fin 64), j = ix2 p q := ⟨j 0, j 1, eq_ix2 j⟩
  refine (Pay.filter_apply _ _ _ _ _ p q).trans ?_
  rw [weight1_block, bias1_block, weight2_block, bias2_block]
  obtain ⟨-, -, -, -, -, -, -, -, e8, e9⟩ := filter_index_facts t
  show filterRow _ _ _ _ _ q
    = filterRow (fun k => V c main_arg2 (ix2 ((((cfg1.win 5).blk t).view.emb (ix2 p q)) 0) k))
        (V c main_arg5) (V c main_arg6) (V c main_arg7) (V c main_arg8) ((((cfg1.win 5).blk t).view.emb (ix2 p q)) 1)
  refine filterRow_congr _ _ _ _ (fun k => rbf_block_apply V c t (ix2 p k) _ ?_ rfl) (Fin.ext ?_)
  · show win1_5.index t (0 : Fin 2) * 5000 + 1 * p.val = t.val * 5000 + p.val; omega
  · show q.val = win1_5.index t (1 : Fin 2) * 64 + 1 * q.val; omega

/-- An index of the output array is in point `t`'s block iff each coordinate is in the block's range on its axis. -/
private theorem filter_mem_block (t : Fin cfg1.N) (i : S800000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v5).slice (win1_5.rect t)).set ↔ _
  rw [View.set_slice_whole, Rect.mem_set_unit]
  exact Iff.rfl

set_option maxHeartbeats 400000 in
/-- Row `r` of the output array lies in the block of point `r / 5000`, and every point writes its block back. -/
private theorem filter_cover (i : S800000x64.Idx) :
    ∃ t : Fin cfg1.N, (cfg1.win 5).flush t = true ∧ i ∈ ((cfg1.win 5).blk t).view.set := by
  have hi0 : (i 0).val < 800000 := (i 0).isLt
  have hi1 : (i 1).val < 64 := (i 1).isLt
  have hN : cfg1.N = 160 := N_1
  obtain ⟨t, ht⟩ : ∃ t : Fin cfg1.N, t.val = (i 0).val / 5000 := ⟨⟨(i 0).val / 5000, by rw [hN]; omega⟩, rfl⟩
  obtain ⟨-, -, -, -, -, -, -, -, e8, e9⟩ := filter_index_facts t
  refine ⟨t, flush1_5 t, ?_⟩
  rw [filter_mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the region, its output array is the filter tensor of the radial-basis array, row by row. -/
theorem filter_array (c : Dev nD) :
    (dat1 V c).arrAt 5 cfg1.N
      = fun i => filterRow (fun k => V c main_arg2 (ix2 (i 0) k)) (V c main_arg5) (V c main_arg6) (V c main_arg7)
          (V c main_arg8) (i 1) :=
  (dat1 V c).arrAt_eq_of_cover 5 _ (fun t _ => filter_flushed V c t) filter_cover

end Cert.KernelIdeal.RegionValue

end
-- ==== Proof.RegionUpdate.lean ====
/-
  The third pallas_call's output array, whole, as a function of the arrays the region finds.

  Grid point `t` of 10 stages rows 5000·t … 5000·t + 4999 of the aggregated-message array and of the node array
  (the residual), and the two weight matrices and biases whole, and writes back the same rows of the result. So
  row `r` of the result ends as the update row of row `r` of the messages and of the node array.
-/
import proofs.«404692_j5506148073800_2_alg».proof.Proof.Gen.KernelIdeal.Frame
import proofs.«404692_j5506148073800_2_alg».proof.Proof.KPay
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Cert.Schnet Idealize.ShloMosaic Idealize.ShloMosaic.TcCoe Idealize.SL.Sem
open Idealize.ShloMosaic.ValueIdx
open Idealize.ShloMosaic.Pipeline (Dat)

/- The TensorCore's buffer contents when the region is entered. -/
variable (V : (c : Dev nD) → (b : Ref sig .tc) → Buf (Elt Ideal) ((c : Thread nD τ).loc b))

/-- The zero offsets of a whole-block access, as the constant function. -/
private theorem zeros2 : (![0, 0] : Fin 2 → Nat) = fun _ => 0 := funext fun a => by fin_cases a <;> rfl
private theorem zeros1 : (![0] : Fin 1 → Nat) = fun _ => 0 := funext fun a => by fin_cases a; rfl

set_option maxHeartbeats 400000 in
/-- The index maps over the 10 grid points: the message window, the residual window and the output window are at
    row block `t`, column block 0; the two weight windows and the two bias windows stay at block 0. -/
private theorem update_index_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val
    ∧ win2_6.index t (1 : Fin 2) = 0 :=
  (by decide +kernel : ∀ t : Fin grid2.N, _)

set_option maxHeartbeats 400000 in
/-- Entry `y` of the message window's block at point `t` is the message array's entry at row `5000·t + y₀`,
    column `y₁`. -/
private theorem message_block_apply (c : Dev nD) (t : Fin cfg2.N) (y : S5000x64.Idx) (i : S50000x64.Idx)
    (h0 : (i 0).val = t.val * 5000 + (y 0).val) (h1 : (i 1).val = (y 1).val) :
    iblk2 V c 0 t y = V c main_v10 i := by
  obtain ⟨e0, e1, -⟩ := update_index_facts t
  show V c main_v10 (((cfg2.win 0).blk t).view.emb y) = V c main_v10 i
  congr 1
  funext a
  apply Fin.ext
  match a with
  | ⟨0, _⟩ => show win2_0.index t (0 : Fin 2) * 5000 + 1 * (y 0).val = (i 0).val; omega
  | ⟨1, _⟩ => show win2_0.index t (1 : Fin 2) * 64 + 1 * (y 1).val = (i 1).val; omega

set_option maxHeartbeats 400000 in
/-- Entry `y` of the residual window's block at point `t` is the node array's entry at row `5000·t + y₀`,
    column `y₁`. -/
private theorem residual_block_apply (c : Dev nD) (t : Fin cfg2.N) (y : S5000x64.Idx) (i : S50000x64.Idx)
    (h0 : (i 0).val = t.val * 5000 + (y 0).val) (h1 : (i 1).val = (y 1).val) :
    iblk2 V c 1 t y = V c main_arg0 i := by
  obtain ⟨-, -, e2, e3, -⟩ := update_index_facts t
  show V c main_arg0 (((cfg2.win 1).blk t).view.emb y) = V c main_arg0 i
  congr 1
  funext a
  apply Fin.ext
  match a with
  | ⟨0, _⟩ => show win2_1.index t (0 : Fin 2) * 5000 + 1 * (y 0).val = (i 0).val; omega
  | ⟨1, _⟩ => show win2_1.index t (1 : Fin 2) * 64 + 1 * (y 1).val = (i 1).val; omega

set_option maxHeartbeats 400000 in
/-- The first weight window's one block is the whole first weight matrix. -/
private theorem weight2_block (c : Dev nD) (t : Fin cfg2.N) : iblk2 V c 2 t = V c main_arg9 := by
  obtain ⟨-, -, -, -, e4, e5, -⟩ := update_index_facts t
  funext y
  show V c main_arg9 (((cfg2.win 2).blk t).view.emb y) = V c main_arg9 y
  congr 1
  funext a
  apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

set_option maxHeartbeats 400000 in
/-- The first bias window's one block is the whole first bias. -/
private theorem bias2_block (c : Dev nD) (t : Fin cfg2.N) : iblk2 V c 3 t = V c main_arg10 := by
  obtain ⟨-, -, -, -, -, -, e6, -⟩ := update_index_facts t
  funext y
  show V c main_arg10 (((cfg2.win 3).blk t).view.emb y) = V c main_arg10 y
  congr 1
  funext a
  apply Fin.ext
  match a with
  | ⟨0, _⟩ => show win2_3.index t (0 : Fin 1) * 64 + 1 * (y 0).val = (y 0).val; omega

set_option maxHeartbeats 400000 in
/-- The second weight window's one block is the whole second weight matrix. -/
private theorem weight3_block (c : Dev nD) (t : Fin cfg2.N) : iblk2 V c 4 t = V c main_arg11 := by
  obtain ⟨-, -, -, -, -, -, -, e7, e8, -⟩ := update_index_facts t
  funext y
  show V c main_arg11 (((cfg2.win 4).blk t).view.emb y) = V c main_arg11 y
  congr 1
  funext a
  apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

set_option maxHeartbeats 400000 in
/-- The second bias window's one block is the whole second bias. -/
private theorem bias3_block (c : Dev nD) (t : Fin cfg2.N) : iblk2 V c 5 t = V c main_arg12 := by
  obtain ⟨-, -, -, -, -, -, -, -, -, e9, -⟩ := update_index_facts t
  funext y
  show V c main_arg12 (((cfg2.win 5).blk t).view.emb y) = V c main_arg12 y
  congr 1
  funext a
  apply Fin.ext
  match a with
  | ⟨0, _⟩ => show win2_5.index t (0 : Fin 1) * 64 + 1 * (y 0).val = (y 0).val; omega

/-- An update row depends only on the message row's entries, the residual row's entries and the output feature. -/
private theorem updateRow_congr {h h' x x' : Fin 64 → EReal} (w2 : (⟨2, ![64, 64]⟩ : Shape).Idx → EReal)
    (b2 : (⟨1, ![64]⟩ : Shape).Idx → EReal) (w3 : (⟨2, ![64, 64]⟩ : Shape).Idx → EReal)
    (b3 : (⟨1, ![64]⟩ : Shape).Idx → EReal) {q q' : Fin 64} (hh : ∀ k, h k = h' k) (hx : ∀ k, x k = x' k)
    (hq : q = q') : updateRow h x w2 b2 w3 b3 q = updateRow h' x' w2 b2 w3 b3 q' := by
  subst hq; rw [funext hh, funext hx]

set_option maxHeartbeats 400000 in
/-- What point `t` writes back is block `t` of the row-by-row node update: entry `(p, q)` of the stored block is
    the update row of row `p` of the message block and of the residual block, which are row `5000·t + p` of the
    message array and of the node array, and the output block's entry `(p, q)` sits at row `5000·t + p`, column `q`
    of the output array. -/
private theorem update_flushed (c : Dev nD) (t : Fin cfg2.N) :
    (dat2 V c).flushed 6 t = ((cfg2.win 6).blk t).view.read (Elt Ideal)
      (fun i => updateRow (fun k => V c main_v10 (ix2 (i 0) k)) (fun k => V c main_arg0 (ix2 (i 0) k)) (V c main_arg9)
          (V c main_arg10) (V c main_arg11) (V c main_arg12) (i 1)) := by
  show (cfg2.win 6).cut (grid2.coords t) ((dat2 V c).after 6 t) = _
  rw [after2_6]
  unfold out2_6
  rw [View.canon_unit_zero zeros2]
  simp only [View.ld_unit_zero (S := S5000x64) zeros2, View.ld_unit_zero (S := S64x64) zeros2,
    View.ld_unit_zero (S := S64) zeros1]
  funext j
  obtain ⟨p, q, rfl⟩ : ∃ (p : Fin 5000) (q : Fin 64), j = ix2 p q := ⟨j 0, j 1, eq_ix2 j⟩
  refine (Pay.update_apply _ _ _ _ _ _ p q).trans ?_
  rw [weight2_block, bias2_block, weight3_block, bias3_block]
  obtain ⟨-, -, -, -, -, -, -, -, -, -, e10, e11⟩ := update_index_facts t
  show updateRow _ _ _ _ _ _ q
    = updateRow (fun k => V c main_v10 (ix2 ((((cfg2.win 6).blk t).view.emb (ix2 p q)) 0) k))
        (fun k => V c main_arg0 (ix2 ((((cfg2.win 6).blk t).view.emb (ix2 p q)) 0) k))
        (V c main_arg9) (V c main_arg10) (V c main_arg11) (V c main_arg12) ((((cfg2.win 6).blk t).view.emb (ix2 p q)) 1)
  refine updateRow_congr _ _ _ _ (fun k => message_block_apply V c t (ix2 p k) _ ?_ rfl)
    (fun k => residual_block_apply V c t (ix2 p k) _ ?_ rfl) (Fin.ext ?_)
  · show win2_6.index t (0 : Fin 2) * 5000 + 1 * p.val = t.val * 5000 + p.val; omega
  · show win2_6.index t (0 : Fin 2) * 5000 + 1 * p.val = t.val * 5000 + p.val; omega
  · show q.val = win2_6.index t (1 : Fin 2) * 64 + 1 * q.val; omega

/-- An index of the output array is in point `t`'s block iff each coordinate is in the block's range on its axis. -/
private theorem update_mem_block (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v11).slice (win2_6.rect t)).set ↔ _
  rw [View.set_slice_whole, Rect.mem_set_unit]
  exact Iff.rfl

set_option maxHeartbeats 400000 in
/-- Row `r` of the output array lies in the block of point `r / 5000`, and every point writes its block back. -/
private theorem update_cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e10, e11⟩ := update_index_facts t
  refine ⟨t, flush2_6 t, ?_⟩
  rw [update_mem_block]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- After the region, its output array is the node update of the message array and the node array, row by row. -/
theorem update_array (c : Dev nD) :
    (dat2 V c).arrAt 6 cfg2.N
      = fun i => updateRow (fun k => V c main_v10 (ix2 (i 0) k)) (fun k => V c main_arg0 (ix2 (i 0) k)) (V c main_arg9)
          (V c main_arg10) (V c main_arg11) (V c main_arg12) (i 1) :=
  (dat2 V c).arrAt_eq_of_cover 6 _ (fun t _ => update_flushed V c t) update_cover

end Cert.KernelIdeal.RegionValue

end
-- ==== Proof.Take.lean ====
/-
  jnp.take in its default "fill" mode against plain indexing, for row indices that address the table.

  Both programs first turn a negative source index into one counted from the end (`s + 50000` when `s < 0`) and
  gather rows of the 50000-row table at the result. The kernel's `jnp.take` then keeps a gathered row only where
  that index lies in `0 … 49999` and fills the row with NaN elsewhere. For `-50000 ≤ s < 50000` the turned index
  always lies in `0 … 49999`, so the fill never happens and the take is the plain gather.
-/
import proofs.«404692_j5506148073800_2_alg».proof.KernelIdeal
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

noncomputable section

namespace Cert.KernelIdeal.TakeValue

open Cert.KernelIdeal Idealize.ShloMosaic Idealize.ShloMosaic.ValueIdx

variable [Facts₀]
open Facts₀
variable {F : FTy → Type} [FloatOps F]

/-- A left fold by `and` from 1 over words that are all 1 stays 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = (1#1 : BitVec 1) := by decide
    rw [List.foldl_cons, h a (List.mem_cons.2 (Or.inl rfl)), e]
    exact foldl_andi_one f l fun n hn => h n (List.mem_cons.2 (Or.inr hn))

/-- A signed word in `0 … 49999` passes both range tests. -/
private theorem range_tests (t : BitVec 32) (h0 : (0 : Int) ≤ t.toInt) (h1 : t.toInt ≤ 49999) :
    IntOp.andi (IntOp.cmpi .sge t 0#32) (IntOp.cmpi .sle t 49999#32) = 1#1 := by
  have z0 : (0#32 : BitVec 32).toInt = 0 := by decide
  have z1 : (49999#32 : BitVec 32).toInt = 49999 := by decide
  rw [IntOp.andi_eq_one]
  constructor
  · simp only [IntOp.cmpi, BitVec.sle_eq_decide, z0, StableHlo.Predicate.ofBool_eq_one_iff, decide_eq_true_eq]
    exact h0
  · simp only [IntOp.cmpi, BitVec.sle_eq_decide, z1, StableHlo.Predicate.ofBool_eq_one_iff, decide_eq_true_eq]
    exact h1

/-- The word arithmetic: for `-50000 ≤ w < 50000` the index counted from the end when `w` is negative lies in
    `0 … 49999` (adding 50000 to a word in `-50000 … -1` does not wrap). -/
private theorem wrap_in_range (w : BitVec 32) (h1 : (-50000 : Int) ≤ w.toInt) (h2 : w.toInt < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have z0 : (0#32 : BitVec 32).toInt = 0 := by decide
  have z2 : (50000#32 : BitVec 32).toInt = 50000 := by decide
  by_cases hneg : w.toInt < 0
  · have hc : IntOp.cmpi .slt w 0#32 = 1#1 := by
      simp only [IntOp.cmpi, BitVec.slt_eq_decide, z0, StableHlo.Predicate.ofBool_eq_one_iff, decide_eq_true_eq]
      exact hneg
    rw [hc, select_one]
    have ht : (IntOp.addi w 50000#32).toInt = w.toInt + 50000 := by
      show (w + 50000#32).toInt = _
      rw [BitVec.toInt_add, z2, Int.bmod_def]
      norm_num
      omega
    exact range_tests _ (by omega) (by omega)
  · have hc : IntOp.cmpi .slt w 0#32 = 0#1 := by
      apply eq_zero_of_ne_one
      simp only [IntOp.cmpi, BitVec.slt_eq_decide, z0, StableHlo.Predicate.ofBool_eq_one_iff, decide_eq_true_eq]
      exact hneg
    rw [hc, select_zero]
    exact range_tests _ (by omega) (by omega)

/-- The row each edge gathers, as a column of start indices: a negative source index counts from the end. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The mask of `jnp.take`'s fill mode: per edge, whether its start index lies in `0 … 49999`, laid along the
    64 columns. -/
def inRange (idx : IVec S800000x1 32) : IVec S800000x64 1 :=
  broadcastInDim S800000x64 ![0] bcast_S800000_S800000x64_0
    (Host.reduce IntOp.andi
      (andi (cmpi .sge idx (broadcastInDim S800000x1 ![] bcast_S_S800000x1 (constantI S_ 32 0#32)))
        (cmpi .sle idx (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- For source indices in `-50000 … 49999` the turned index is in range on every edge. -/
theorem inRange_wrapIdx (s : IVec S800000 32)
    (hs : ∀ e : S800000.Idx, (-50000 : Int) ≤ (s e).toInt ∧ (s e).toInt < 50000) (j : S800000x64.Idx) :
    inRange (wrapIdx s) j = 1#1 := by
  -- every word of the reduced mask is 1: at each position the tested word is the turned index of some edge
  have hX : ∀ i : S800000x1.Idx,
      andi (cmpi .sge (wrapIdx s) (broadcastInDim S800000x1 ![] bcast_S_S800000x1 (constantI S_ 32 0#32)))
        (cmpi .sle (wrapIdx s) (broadcastInDim S800000x1 ![0, 1] bcast_S1x1_S800000x1_0_1
          (broadcastInDim S1x1 ![1] bcast_S1_S1x1_1 (constantI S1 32 49999#32)))) i = 1#1 := by
    intro i
    exact wrap_in_range (s _) (hs _).1 (hs _).2
  -- the broadcast along the columns reads the reduce at the row; the reduce is a fold by `and` from 1
  unfold inRange
  unfold broadcastInDim
  rw [Host.reduce_eq_foldl]
  exact foldl_andi_one _ _ fun n _ => hX n

/-- So the fill-mode take is the plain gather. -/
theorem take_eq_gather (h : FVec F S50000x64 .f32) (s : IVec S800000 32)
    (hs : ∀ e : S800000.Idx, (-50000 : Int) ≤ (s e).toInt ∧ (s e).toInt < 50000) :
    select (inRange (wrapIdx s)) (Host.gather gather_S50000x64_S800000x1_S800000x64_1_0_n_n_0_1_164 h (wrapIdx s))
        (broadcastInDim S800000x64 ![] bcast_S_S800000x64 (constant S_ .f32 0x7FC00000#32))
      = Host.gather gather_S50000x64_S800000x1_S800000x64_1_0_n_n_0_1_164 h (wrapIdx s) := by
  funext j
  rw [select_apply, inRange_wrapIdx s hs j, select_one]

end Cert.KernelIdeal.TakeValue

end
-- ==== Proof.Value.lean ====
/-
  The kernel program's value as one function of its argument arrays, stated.

  Node rows pass through a dense layer; every edge gathers the row of its source node (a negative source index counts
  from the end) and multiplies it by the edge's filter row; the products are scatter-added into the rows of the
  destination nodes; every node row is then updated from its aggregated row and its input row. The gather and the
  scatter-add are kept as the host operations both programs apply; the rest is the row-level specification.
-/
import proofs.«404692_j5506148073800_2_alg».proof.KernelIdeal
import proofs.«404692_j5506148073800_2_alg».proof.Proof.Spec
import proofs.«404692_j5506148073800_2_alg».proof.Proof.Take
import Idealize.ShloMosaic.Lib.ValueIdx

noncomputable section

namespace Cert.KernelIdeal.RunValue

open Cert.KernelIdeal Cert.Schnet Idealize.ShloMosaic Idealize.ShloMosaic.ValueIdx

variable [Facts₀]
open Facts₀

/-- The source index of every edge: the first row of `edge_index`. -/
def srcVec (a1 : IVec S2x800000 32) : IVec S800000 32 :=
  shapeCast S800000 (extractStridedSlice S1x800000 ![0, 0] a1 slices_S2x800000_S1x800000_0_0) shapeCasts_S1x800000_S800000

/-- The destination index of every edge: the second row of `edge_index`. -/
def dstVec (a1 : IVec S2x800000 32) : IVec S800000 32 :=
  shapeCast S800000 (extractStridedSlice S1x800000 ![1, 0] a1 slices_S2x800000_S1x800000_1_0) shapeCasts_S1x800000_S800000

/-- The first dense layer on every node row. -/
def nodeLinear (a0 : FVec Ideal S50000x64 .f32) (a3 : FVec Ideal S64x64 .f32) (a4 : FVec Ideal S64 .f32) : FVec Ideal S50000x64 .f32 :=
  fun i => dense64 (fun k => a0 (ix2 (i 0) k)) a3 a4 (i 1)

/-- The filter row of every edge. -/
def edgeFilter (a2 : FVec Ideal S800000x300 .f32) (a5 : FVec Ideal S300x64 .f32) (a6 : FVec Ideal S64 .f32)
    (a7 : FVec Ideal S64x64 .f32) (a8 : FVec Ideal S64 .f32) : FVec Ideal S800000x64 .f32 :=
  fun i => filterRow (fun k => a2 (ix2 (i 0) k)) a5 a6 a7 a8 (i 1)

/-- The aggregated messages: gathered source rows times filter rows, scatter-added at the destination rows. -/
def messages (h : FVec Ideal S50000x64 .f32) (a1 : IVec S2x800000 32) (filt : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstVec a1))
    (mulf (Host.gather gather_S50000x64_S800000x1_S800000x64_1_0_n_n_0_1_164 h (TakeValue.wrapIdx (srcVec a1))) filt)

/-- The node update on every node row. -/
def nodeUpdate (h2 a0 : FVec Ideal S50000x64 .f32) (a9 : FVec Ideal S64x64 .f32) (a10 : FVec Ideal S64 .f32)
    (a11 : FVec Ideal S64x64 .f32) (a12 : FVec Ideal S64 .f32) : FVec Ideal S50000x64 .f32 :=
  fun i => updateRow (fun k => h2 (ix2 (i 0) k)) (fun k => a0 (ix2 (i 0) k)) a9 a10 a11 a12 (i 1)

end Cert.KernelIdeal.RunValue

end
-- ==== Proof.HostChain.lean ====
/-
  The kernel program's result as one function of its argument arrays.

  Between the three pallas_calls the host program gathers rows of the first call's output at the source indices
  (`jnp.take`), multiplies them by the second call's filter rows, and scatter-adds the products into node rows at the
  destination indices; the third call then updates every node row. Each call's output array is the row-by-row
  function of the arrays it finds at its entry, and no host operation and no call writes an argument array, so every
  array a call reads is either an argument as launched or the value just described. Under the range hypothesis on the
  source indices the fill of `jnp.take` never happens and the take is the plain gather.
-/
import proofs.«404692_j5506148073800_2_alg».proof.Proof.Gen.KernelIdeal.Frame
import proofs.«404692_j5506148073800_2_alg».proof.Proof.RegionLinear
import proofs.«404692_j5506148073800_2_alg».proof.Proof.RegionFilter
import proofs.«404692_j5506148073800_2_alg».proof.Proof.RegionUpdate
import proofs.«404692_j5506148073800_2_alg».proof.Proof.Take
import proofs.«404692_j5506148073800_2_alg».proof.Proof.Value
import Idealize.ShloMosaic.Lib.StableHlo.Run

set_option maxRecDepth 16384

noncomputable section

namespace Cert.KernelIdeal.RunValue

open Cert.KernelIdeal Cert.KernelIdeal.Gen Cert.Schnet Idealize.ShloMosaic Idealize.ShloMosaic.TcCoe Idealize.SL.Sem
open Idealize.ShloMosaic.ValueIdx Idealize.ShloMosaic.StableHlo
open Idealize.ShloMosaic.Pipeline (Dat)

/-! ## The arrays each pallas_call finds -/

variable (m : (ℓ : Loc nD τ sig) → Buf (Elt Ideal) ℓ) (ρ : Dev nD → PrngReg)

/-- No operation of the named stretch of host operations writes the buffer in the goal, so its contents pass through. -/
local macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem V1_main_arg0 (c : Dev nD) : V1 m ρ c main_arg0 = m ((c : Thread nD τ).loc main_arg0) := by
  show StableHlo.after hostOps0 (W0 m ρ c) (Proc.devRef .tc main_arg0) = _
  exact (by host_keeps hostOps0 : StableHlo.after hostOps0 (W0 m ρ c) (Proc.devRef .tc main_arg0) = W0 m ρ c (Proc.devRef .tc main_arg0))

theorem V1_main_arg3 (c : Dev nD) : V1 m ρ c main_arg3 = m ((c : Thread nD τ).loc main_arg3) := by
  show StableHlo.after hostOps0 (W0 m ρ c) (Proc.devRef .tc main_arg3) = _
  exact (by host_keeps hostOps0 : StableHlo.after hostOps0 (W0 m ρ c) (Proc.devRef .tc main_arg3) = W0 m ρ c (Proc.devRef .tc main_arg3))

theorem V1_main_arg4 (c : Dev nD) : V1 m ρ c main_arg4 = m ((c : Thread nD τ).loc main_arg4) := by
  show StableHlo.after hostOps0 (W0 m ρ c) (Proc.devRef .tc main_arg4) = _
  exact (by host_keeps hostOps0 : StableHlo.after hostOps0 (W0 m ρ c) (Proc.devRef .tc main_arg4) = W0 m ρ c (Proc.devRef .tc main_arg4))

theorem V1_main_arg2 (c : Dev nD) : V1 m ρ c main_arg2 = m ((c : Thread nD τ).loc main_arg2) := by
  show StableHlo.after hostOps0 (W0 m ρ c) (Proc.devRef .tc main_arg2) = _
  exact (by host_keeps hostOps0 : StableHlo.after hostOps0 (W0 m ρ c) (Proc.devRef .tc main_arg2) = W0 m ρ c (Proc.devRef .tc main_arg2))

theorem V1_main_arg5 (c : Dev nD) : V1 m ρ c main_arg5 = m ((c : Thread nD τ).loc main_arg5) := by
  show StableHlo.after hostOps0 (W0 m ρ c) (Proc.devRef .tc main_arg5) = _
  exact (by host_keeps hostOps0 : StableHlo.after hostOps0 (W0 m ρ c) (Proc.devRef .tc main_arg5) = W0 m ρ c (Proc.devRef .tc main_arg5))

theorem V1_main_arg6 (c : Dev nD) : V1 m ρ c main_arg6 = m ((c : Thread nD τ).loc main_arg6) := by
  show StableHlo.after hostOps0 (W0 m ρ c) (Proc.devRef .tc main_arg6) = _
  exact (by host_keeps hostOps0 : StableHlo.after hostOps0 (W0 m ρ c) (Proc.devRef .tc main_arg6) = W0 m ρ c (Proc.devRef .tc main_arg6))

theorem V1_main_arg7 (c : Dev nD) : V1 m ρ c main_arg7 = m ((c : Thread nD τ).loc main_arg7) := by
  show StableHlo.after hostOps0 (W0 m ρ c) (Proc.devRef .tc main_arg7) = _
  exact (by host_keeps hostOps0 : StableHlo.after hostOps0 (W0 m ρ c) (Proc.devRef .tc main_arg7) = W0 m ρ c (Proc.devRef .tc main_arg7))

theorem V1_main_arg8 (c : Dev nD) : V1 m ρ c main_arg8 = m ((c : Thread nD τ).loc main_arg8) := by
  show StableHlo.after hostOps0 (W0 m ρ c) (Proc.devRef .tc main_arg8) = _
  exact (by host_keeps hostOps0 : StableHlo.after hostOps0 (W0 m ρ c) (Proc.devRef .tc main_arg8) = W0 m ρ c (Proc.devRef .tc main_arg8))

theorem V1_main_arg9 (c : Dev nD) : V1 m ρ c main_arg9 = m ((c : Thread nD τ).loc main_arg9) := by
  show StableHlo.after hostOps0 (W0 m ρ c) (Proc.devRef .tc main_arg9) = _
  exact (by host_keeps hostOps0 : StableHlo.after hostOps0 (W0 m ρ c) (Proc.devRef .tc main_arg9) = W0 m ρ c (Proc.devRef .tc main_arg9))

theorem V1_main_arg10 (c : Dev nD) : V1 m ρ c main_arg10 = m ((c : Thread nD τ).loc main_arg10) := by
  show StableHlo.after hostOps0 (W0 m ρ c) (Proc.devRef .tc main_arg10) = _
  exact (by host_keeps hostOps0 : StableHlo.after hostOps0 (W0 m ρ c) (Proc.devRef .tc main_arg10) = W0 m ρ c (Proc.devRef .tc main_arg10))

theorem V1_main_arg11 (c : Dev nD) : V1 m ρ c main_arg11 = m ((c : Thread nD τ).loc main_arg11) := by
  show StableHlo.after hostOps0 (W0 m ρ c) (Proc.devRef .tc main_arg11) = _
  exact (by host_keeps hostOps0 : StableHlo.after hostOps0 (W0 m ρ c) (Proc.devRef .tc main_arg11) = W0 m ρ c (Proc.devRef .tc main_arg11))

theorem V1_main_arg12 (c : Dev nD) : V1 m ρ c main_arg12 = m ((c : Thread nD τ).loc main_arg12) := by
  show StableHlo.after hostOps0 (W0 m ρ c) (Proc.devRef .tc main_arg12) = _
  exact (by host_keeps hostOps0 : StableHlo.after hostOps0 (W0 m ρ c) (Proc.devRef .tc main_arg12) = W0 m ρ c (Proc.devRef .tc main_arg12))

theorem V2_main_arg2 (c : Dev nD) : V2 m ρ c main_arg2 = m ((c : Thread nD τ).loc main_arg2) :=
  (W2_of_ne m ρ c main_arg2 (by decide)).trans (V1_main_arg2 m ρ c)

theorem V2_main_arg5 (c : Dev nD) : V2 m ρ c main_arg5 = m ((c : Thread nD τ).loc main_arg5) :=
  (W2_of_ne m ρ c main_arg5 (by decide)).trans (V1_main_arg5 m ρ c)

theorem V2_main_arg6 (c : Dev nD) : V2 m ρ c main_arg6 = m ((c : Thread nD τ).loc main_arg6) :=
  (W2_of_ne m ρ c main_arg6 (by decide)).trans (V1_main_arg6 m ρ c)

theorem V2_main_arg7 (c : Dev nD) : V2 m ρ c main_arg7 = m ((c : Thread nD τ).loc main_arg7) :=
  (W2_of_ne m ρ c main_arg7 (by decide)).trans (V1_main_arg7 m ρ c)

theorem V2_main_arg8 (c : Dev nD) : V2 m ρ c main_arg8 = m ((c : Thread nD τ).loc main_arg8) :=
  (W2_of_ne m ρ c main_arg8 (by decide)).trans (V1_main_arg8 m ρ c)

theorem V5_main_arg9 (c : Dev nD) : V5 m ρ c main_arg9 = m ((c : Thread nD τ).loc main_arg9) :=
  calc W5 m ρ c (Proc.devRef .tc main_arg9)
    _ = W4 m ρ c (Proc.devRef .tc main_arg9) := by host_keeps hostOps2_1
    _ = W3 m ρ c (Proc.devRef .tc main_arg9) := by host_keeps hostOps2
    _ = W2 m ρ c (Proc.devRef .tc main_arg9) := W3_of_ne m ρ c main_arg9 (by decide)
    _ = W1 m ρ c (Proc.devRef .tc main_arg9) := W2_of_ne m ρ c main_arg9 (by decide)
    _ = m ((c : Thread nD τ).loc main_arg9) := V1_main_arg9 m ρ c

theorem V5_main_arg10 (c : Dev nD) : V5 m ρ c main_arg10 = m ((c : Thread nD τ).loc main_arg10) :=
  calc W5 m ρ c (Proc.devRef .tc main_arg10)
    _ = W4 m ρ c (Proc.devRef .tc main_arg10) := by host_keeps hostOps2_1
    _ = W3 m ρ c (Proc.devRef .tc main_arg10) := by host_keeps hostOps2
    _ = W2 m ρ c (Proc.devRef .tc main_arg10) := W3_of_ne m ρ c main_arg10 (by decide)
    _ = W1 m ρ c (Proc.devRef .tc main_arg10) := W2_of_ne m ρ c main_arg10 (by decide)
    _ = m ((c : Thread nD τ).loc main_arg10) := V1_main_arg10 m ρ c

theorem V5_main_arg11 (c : Dev nD) : V5 m ρ c main_arg11 = m ((c : Thread nD τ).loc main_arg11) :=
  calc W5 m ρ c (Proc.devRef .tc main_arg11)
    _ = W4 m ρ c (Proc.devRef .tc main_arg11) := by host_keeps hostOps2_1
    _ = W3 m ρ c (Proc.devRef .tc main_arg11) := by host_keeps hostOps2
    _ = W2 m ρ c (Proc.devRef .tc main_arg11) := W3_of_ne m ρ c main_arg11 (by decide)
    _ = W1 m ρ c (Proc.devRef .tc main_arg11) := W2_of_ne m ρ c main_arg11 (by decide)
    _ = m ((c : Thread nD τ).loc main_arg11) := V1_main_arg11 m ρ c

theorem V5_main_arg12 (c : Dev nD) : V5 m ρ c main_arg12 = m ((c : Thread nD τ).loc main_arg12) :=
  calc W5 m ρ c (Proc.devRef .tc main_arg12)
    _ = W4 m ρ c (Proc.devRef .tc main_arg12) := by host_keeps hostOps2_1
    _ = W3 m ρ c (Proc.devRef .tc main_arg12) := by host_keeps hostOps2
    _ = W2 m ρ c (Proc.devRef .tc main_arg12) := W3_of_ne m ρ c main_arg12 (by decide)
    _ = W1 m ρ c (Proc.devRef .tc main_arg12) := W2_of_ne m ρ c main_arg12 (by decide)
    _ = m ((c : Thread nD τ).loc main_arg12) := V1_main_arg12 m ρ c

/-- The node array is the first call's input window 0 and the third call's window 1: staged, never written back. -/
theorem V5_main_arg0 (c : Dev nD) : V5 m ρ c main_arg0 = m ((c : Thread nD τ).loc main_arg0) :=
  calc W5 m ρ c (Proc.devRef .tc main_arg0)
    _ = W4 m ρ c (Proc.devRef .tc main_arg0) := by host_keeps hostOps2_1
    _ = W3 m ρ c (Proc.devRef .tc main_arg0) := by host_keeps hostOps2
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c

/-- The source and destination vectors are computed before the first call and written by nothing after. -/
theorem W3_src (c : Dev nD) : W3 m ρ c (Proc.devRef .tc main_v1) = srcVec (m ((c : Thread nD τ).loc main_arg1)) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)
    _ = srcVec (m ((c : Thread nD τ).loc main_arg1)) := by
          show StableHlo.after hostOps0 (W0 m ρ c) (Proc.devRef .tc main_v1) = _
          after_results
          rfl

theorem W3_dst (c : Dev nD) : W3 m ρ c (Proc.devRef .tc main_v3) = dstVec (m ((c : Thread nD τ).loc main_arg1)) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)
    _ = dstVec (m ((c : Thread nD τ).loc main_arg1)) := by
          show StableHlo.after hostOps0 (W0 m ρ c) (Proc.devRef .tc main_v3) = _
          after_results
          rfl

/-- The first call's output, as the second call and the host operations after it find it. -/
theorem W3_linear (c : Dev nD) :
    W3 m ρ c (Proc.devRef .tc main_v4) = nodeLinear (m ((c : Thread nD τ).loc main_arg0)) (m ((c : Thread nD τ).loc main_arg3)) (m ((c : Thread nD τ).loc main_arg4)) :=
  calc W3 m ρ c (Proc.devRef .tc main_v4)
    _ = W2 m ρ c (Proc.devRef .tc main_v4) := W3_of_ne m ρ c main_v4 (by decide)
    _ = (dat0 (V1 m ρ) c).arrAt 3 cfg0.N := W2_arr m ρ c 3
    _ = nodeLinear (V1 m ρ c main_arg0) (V1 m ρ c main_arg3) (V1 m ρ c main_arg4) := RegionValue.linear_array (V1 m ρ) c
    _ = _ := by rw [V1_main_arg0, V1_main_arg3, V1_main_arg4]

/-- The second call's output. -/
theorem W3_filter (c : Dev nD) :
    W3 m ρ c (Proc.devRef .tc main_v5)
      = edgeFilter (m ((c : Thread nD τ).loc main_arg2)) (m ((c : Thread nD τ).loc main_arg5)) (m ((c : Thread nD τ).loc main_arg6)) (m ((c : Thread nD τ).loc main_arg7)) (m ((c : Thread nD τ).loc main_arg8)) :=
  calc W3 m ρ c (Proc.devRef .tc main_v5)
    _ = (dat1 (V2 m ρ) c).arrAt 5 cfg1.N := W3_arr m ρ c 5
    _ = edgeFilter (V2 m ρ c main_arg2) (V2 m ρ c main_arg5) (V2 m ρ c main_arg6) (V2 m ρ c main_arg7) (V2 m ρ c main_arg8) :=
          RegionValue.filter_array (V2 m ρ) c
    _ = _ := by rw [V2_main_arg2, V2_main_arg5, V2_main_arg6, V2_main_arg7, V2_main_arg8]

/-- A value stored in a buffer at the buffer's own type and read back at the value's type is the value: the two
    transports along the same type equation cancel. -/
theorem ofBuf_toBuf {T : BufTy} (x : StableHlo.TRef sig T) (v : T.Contents (Elt Ideal)) : x.ofBuf (x.toBuf v) = v := by
  obtain ⟨r, rfl, _, _⟩ := x
  rfl

/-- At the literal buffers the take reads and writes, the transport is the identity. -/
theorem ofBuf_src (v : (main_v1 : Ref sig .tc).ty.Contents (Elt Ideal)) :
    (StableHlo.TRef.of (sig := sig) (T := ⟨S800000, .i32⟩) main_v1).ofBuf v = v := rfl

theorem ofBuf_table (v : (main_v4 : Ref sig .tc).ty.Contents (Elt Ideal)) :
    (StableHlo.TRef.of (sig := sig) (T := ⟨S50000x64, .f32⟩) main_v4).ofBuf v = v := rfl

theorem toBuf_taken (v : (⟨S800000x64, .f32⟩ : BufTy).Contents (Elt Ideal)) :
    (StableHlo.TRef.of (sig := sig) (T := ⟨S800000x64, .f32⟩) main_v6).toBuf v = v := rfl

/-- The operations of `jnp.take`, read back: the gathered rows of the first call's output at the turned source
    indices, kept where the fill-mode mask is set and NaN elsewhere. -/
theorem W4_take (c : Dev nD) :
    W4 m ρ c (Proc.devRef .tc main_v6)
      = (select (TakeValue.inRange (TakeValue.wrapIdx (W3 m ρ c (Proc.devRef .tc main_v1))))
          (Host.gather gather_S50000x64_S800000x1_S800000x64_1_0_n_n_0_1_164
            (W3 m ρ c (Proc.devRef .tc main_v4) : FVec Ideal S50000x64 .f32)
            (TakeValue.wrapIdx (W3 m ρ c (Proc.devRef .tc main_v1))))
          (broadcastInDim S800000x64 ![] bcast_S_S800000x64 (constant (F := Ideal) S_ .f32 0x7FC00000#32))
        : FVec Ideal S800000x64 .f32) := by
  show StableHlo.after hostOps2 (W3 m ρ c) (Proc.devRef .tc main_v6) = _
  after_results_simp
  simp only [ofBuf_toBuf, ofBuf_src, ofBuf_table, toBuf_taken]
  rfl

/-- The take's operations write neither the filter array nor the destination vector. -/
theorem W4_filter (c : Dev nD) : W4 m ρ c (Proc.devRef .tc main_v5) = W3 m ρ c (Proc.devRef .tc main_v5) := by
  host_keeps hostOps2

theorem W4_dst (c : Dev nD) : W4 m ρ c (Proc.devRef .tc main_v3) = W3 m ρ c (Proc.devRef .tc main_v3) := by
  host_keeps hostOps2

/-- The host operations right before the third call, read back: the taken rows times the filter, scatter-added into a
    zero array at the destination indices. -/
theorem V5_messages_raw (c : Dev nD) :
    V5 m ρ c main_v10
      = (Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (W4 m ρ c (Proc.devRef .tc main_v3)))
          (mulf (W4 m ρ c (Proc.devRef .tc main_v6) : FVec Ideal S800000x64 .f32)
            (W4 m ρ c (Proc.devRef .tc main_v5) : FVec Ideal S800000x64 .f32)) : FVec Ideal S50000x64 .f32) := by
  show StableHlo.after hostOps2_1 (W4 m ρ c) (Proc.devRef .tc main_v10) = _
  after_results_simp <;> rfl

/-- The aggregated messages the third call finds, for source indices that address the table. -/
theorem V5_messages (c : Dev nD)
    (hs : ∀ e : S800000.Idx, (-50000 : Int) ≤ (srcVec (m ((c : Thread nD τ).loc main_arg1)) e).toInt ∧ (srcVec (m ((c : Thread nD τ).loc main_arg1)) e).toInt < 50000) :
    V5 m ρ c main_v10
      = messages (nodeLinear (m ((c : Thread nD τ).loc main_arg0)) (m ((c : Thread nD τ).loc main_arg3)) (m ((c : Thread nD τ).loc main_arg4))) (m ((c : Thread nD τ).loc main_arg1))
          (edgeFilter (m ((c : Thread nD τ).loc main_arg2)) (m ((c : Thread nD τ).loc main_arg5)) (m ((c : Thread nD τ).loc main_arg6)) (m ((c : Thread nD τ).loc main_arg7)) (m ((c : Thread nD τ).loc main_arg8))) := by
  rw [V5_messages_raw, W4_take, W4_filter, W4_dst, W3_src, W3_dst, W3_linear, W3_filter, TakeValue.take_eq_gather _ _ hs]
  rfl

/-- THE RESULT: what the last boundary's contents hold at the result array. -/
theorem result_eq (c : Dev nD)
    (hs : ∀ e : S800000.Idx, (-50000 : Int) ≤ (srcVec (m ((c : Thread nD τ).loc main_arg1)) e).toInt ∧ (srcVec (m ((c : Thread nD τ).loc main_arg1)) e).toInt < 50000) :
    W6 m ρ c (Proc.devRef .tc main_v11)
      = nodeUpdate
          (messages (nodeLinear (m ((c : Thread nD τ).loc main_arg0)) (m ((c : Thread nD τ).loc main_arg3)) (m ((c : Thread nD τ).loc main_arg4))) (m ((c : Thread nD τ).loc main_arg1))
            (edgeFilter (m ((c : Thread nD τ).loc main_arg2)) (m ((c : Thread nD τ).loc main_arg5)) (m ((c : Thread nD τ).loc main_arg6)) (m ((c : Thread nD τ).loc main_arg7)) (m ((c : Thread nD τ).loc main_arg8))))
          (m ((c : Thread nD τ).loc main_arg0)) (m ((c : Thread nD τ).loc main_arg9)) (m ((c : Thread nD τ).loc main_arg10)) (m ((c : Thread nD τ).loc main_arg11)) (m ((c : Thread nD τ).loc main_arg12)) :=
  calc W6 m ρ c (Proc.devRef .tc main_v11)
    _ = (dat2 (V5 m ρ) c).arrAt 6 cfg2.N := W6_arr m ρ c 6
    _ = nodeUpdate (V5 m ρ c main_v10) (V5 m ρ c main_arg0) (V5 m ρ c main_arg9) (V5 m ρ c main_arg10) (V5 m ρ c main_arg11)
          (V5 m ρ c main_arg12) := RegionValue.update_array (V5 m ρ) c
    _ = _ := by rw [V5_messages m ρ c hs, V5_main_arg0, V5_main_arg9, V5_main_arg10, V5_main_arg11, V5_main_arg12]

end Cert.KernelIdeal.RunValue

end
-- ==== Proof.RefRead.lean ====
/-
  The reference's stages, read at one element on the extended reals.

  Row `i 0`, column `i 1` of the reference's first dense layer is the dense layer of row `i 0` of `x`; of its
  filter tensor, the filter row of row `i 0` of the radial-basis array; and of its result, the update row of row
  `i 0` of the aggregated messages (the scatter-add stage, kept as it is) and of `x`. A host matrix product is the
  plain sum over the contracted axis, and the "not equal to itself" guard of softplus never fires.
-/
import proofs.«404692_j5506148073800_2_alg».proof.Proof.Gen.ReferenceIdeal.Read
import proofs.«404692_j5506148073800_2_alg».proof.Proof.Spec
import Idealize.ShloMosaic.Lib.ValueIdx

noncomputable section

open scoped BigOperators

namespace Cert.ReferenceIdeal.RefValue

open Cert.ReferenceIdeal Cert.ReferenceIdeal.Read Cert.Schnet Idealize.ShloMosaic Idealize.ShloMosaic.ValueIdx

/-- At the extended reals the absolute value is `max x (-x)`. -/
private theorem absf_eq (x : Ideal .f32) : FloatOps.absf x = max x (-x) := rfl

/-- At the extended reals a float comparison is the comparison of the linear order. -/
private theorem cmpf_eq (p : CmpFPredicate) (x y : Ideal .f32) : FloatOps.cmpf p x y = Ideal.cmp p x y := rfl

/-- The printed softplus at one element: the "not equal to itself" guard never fires, so the select keeps the
    overflow-free branch. -/
private theorem select_softplus (y : EReal) :
    Scalar.select (Ideal.cmp .une (y - 0) (y - 0)) (y + 0)
      (max y 0 + Ideal.log1p (Ideal.exp (-(max (y - 0) (-(y - 0)))))) = softplus y := by
  rw [cmp_ne_self .une (Or.inr rfl), select_zero]
  rfl

/-- The reference's first filter dense layer at an element. -/
private theorem v11_apply (x2 : (⟨S800000x300, .f32⟩ : BufTy).Contents (Elt Ideal)) (x5 : (⟨S300x64, .f32⟩ : BufTy).Contents (Elt Ideal)) (x6 : (⟨S64, .f32⟩ : BufTy).Contents (Elt Ideal)) (i : S800000x64.Idx) :
    val_main_v11 (F := Ideal) x2 x5 x6 i = dense300 (fun k => x2 (ix2 (i 0) k)) x5 x6 (i 1) := by
  have e1 : ∀ k : Fin 300, lidx_main_v8 i k = ix2 (i 0) k := fun k => funext fun a => Fin.ext (by
    match a with | ⟨0, _⟩ => rfl | ⟨1, _⟩ => rfl)
  have e2 : ∀ k : Fin 300, ridx_main_v8 i k = ix2 k (i 1) := fun k => funext fun a => Fin.ext (by
    match a with | ⟨0, _⟩ => rfl | ⟨1, _⟩ => rfl)
  have e3 : idx_main_v9 (idx_main_v10 i) = ix1 (i 1) := funext fun a => Fin.ext (by
    match a with | ⟨0, _⟩ => rfl)
  rw [val_main_v11_apply, val_main_v8_apply, val_main_v10_apply, val_main_v9_apply]
  simp only [e1, e2, e3, Ideal.addf_def]
  rfl

/-- The first shifted softplus of the filter network at an element. -/
private theorem v14_apply (x2 : (⟨S800000x300, .f32⟩ : BufTy).Contents (Elt Ideal)) (x5 : (⟨S300x64, .f32⟩ : BufTy).Contents (Elt Ideal)) (x6 : (⟨S64, .f32⟩ : BufTy).Contents (Elt Ideal)) (i : S800000x64.Idx) :
    val_main_v14 (F := Ideal) x2 x5 x6 i = ssp (val_main_v11 (F := Ideal) x2 x5 x6 i) := by
  rw [val_main_v14_apply, val_main_v12_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply,
    val_main_v13_apply, val_main_cst_apply]
  simp only [Ideal.addf_def, Ideal.subf_def, Ideal.maximumf_def, Ideal.hostAbsf_def, Ideal.hostNegf_def, Ideal.negf_def,
    Ideal.hostUnary_exp_def, Ideal.hostUnary_log1p_def, Ideal.ofBits_def, absf_eq, cmpf_eq, Ideal.ofBits_zero_f32]
  rw [select_softplus]
  rfl

/-- The second filter dense layer at an element, over the first activation's row. -/
private theorem v18_apply (x2 : (⟨S800000x300, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (i : S800000x64.Idx) :
    val_main_v18 (F := Ideal) x2 x5 x6 x7 x8 i = dense64 (fun k => val_main_v14 (F := Ideal) x2 x5 x6 (ix2 (i 0) k)) x7 x8 (i 1) := by
  have e1 : ∀ k : Fin 64, lidx_main_v15 i k = ix2 (i 0) k := fun k => funext fun a => Fin.ext (by
    match a with | ⟨0, _⟩ => rfl | ⟨1, _⟩ => rfl)
  have e2 : ∀ k : Fin 64, ridx_main_v15 i k = ix2 k (i 1) := fun k => funext fun a => Fin.ext (by
    match a with | ⟨0, _⟩ => rfl | ⟨1, _⟩ => rfl)
  have e3 : idx_main_v16 (idx_main_v17 i) = ix1 (i 1) := funext fun a => Fin.ext (by
    match a with | ⟨0, _⟩ => rfl)
  rw [val_main_v18_apply, val_main_v15_apply, val_main_v17_apply, val_main_v16_apply]
  simp only [e1, e2, e3, Ideal.addf_def]
  rfl

/-- The second shifted softplus of the filter network at an element. -/
private theorem v21_apply (x2 : (⟨S800000x300, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (i : S800000x64.Idx) :
    val_main_v21 (F := Ideal) x2 x5 x6 x7 x8 i = ssp (val_main_v18 (F := Ideal) x2 x5 x6 x7 x8 i) := by
  rw [val_main_v21_apply, val_main_v19_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, val_main_v20_apply, val_main_cst_0_apply]
  simp only [Ideal.addf_def, Ideal.subf_def, Ideal.maximumf_def, Ideal.hostAbsf_def, Ideal.hostNegf_def, Ideal.negf_def,
    Ideal.hostUnary_exp_def, Ideal.hostUnary_log1p_def, Ideal.ofBits_def, absf_eq, cmpf_eq, Ideal.ofBits_zero_f32]
  rw [select_softplus]
  rfl

/-- The update network's first dense layer at an element, over the scatter-add stage's row. -/
private theorem v36_apply (x0 : (⟨S50000x64, .f32⟩ : BufTy).Contents (Elt Ideal)) (x1 : (⟨S2x800000, .i32⟩ : BufTy).Contents (Elt Ideal)) (x2 : (⟨S800000x300, .f32⟩ : BufTy).Contents (Elt Ideal)) (x3 : (⟨S64x64, .f32⟩ : BufTy).Contents (Elt Ideal)) (x4 : (⟨S64, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (i : S50000x64.Idx) :
    val_main_v36 (F := Ideal) x0 x1 x2 x3 x4 x5 x6 x7 x8 x9 x10 i = dense64 (fun k => val_main_v32 (F := Ideal) x0 x1 x2 x3 x4 x5 x6 x7 x8 (ix2 (i 0) k)) x9 x10 (i 1) := by
  have e1 : ∀ k : Fin 64, lidx_main_v33 i k = ix2 (i 0) k := fun k => funext fun a => Fin.ext (by
    match a with | ⟨0, _⟩ => rfl | ⟨1, _⟩ => rfl)
  have e2 : ∀ k : Fin 64, ridx_main_v33 i k = ix2 k (i 1) := fun k => funext fun a => Fin.ext (by
    match a with | ⟨0, _⟩ => rfl | ⟨1, _⟩ => rfl)
  have e3 : idx_main_v34 (idx_main_v35 i) = ix1 (i 1) := funext fun a => Fin.ext (by
    match a with | ⟨0, _⟩ => rfl)
  rw [val_main_v36_apply, val_main_v33_apply, val_main_v35_apply, val_main_v34_apply]
  simp only [e1, e2, e3, Ideal.addf_def]
  rfl

/-- The update network's shifted softplus at an element. -/
private theorem v39_apply (x0 : (⟨S50000x64, .f32⟩ : BufTy).Contents (Elt Ideal)) (x1 : (⟨S2x800000, .i32⟩ : BufTy).Contents (Elt Ideal)) (x2 : (⟨S800000x300, .f32⟩ : BufTy).Contents (Elt Ideal)) (x3 : (⟨S64x64, .f32⟩ : BufTy).Contents (Elt Ideal)) (x4 : (⟨S64, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (i : S50000x64.Idx) :
    val_main_v39 (F := Ideal) x0 x1 x2 x3 x4 x5 x6 x7 x8 x9 x10 i = ssp (val_main_v36 (F := Ideal) x0 x1 x2 x3 x4 x5 x6 x7 x8 x9 x10 i) := by
  rw [val_main_v39_apply, val_main_v37_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply, val_main_v38_apply, val_main_cst_3_apply]
  simp only [Ideal.addf_def, Ideal.subf_def, Ideal.maximumf_def, Ideal.hostAbsf_def, Ideal.hostNegf_def, Ideal.negf_def,
    Ideal.hostUnary_exp_def, Ideal.hostUnary_log1p_def, Ideal.ofBits_def, absf_eq, cmpf_eq, Ideal.ofBits_zero_f32]
  rw [select_softplus]
  rfl

/-- The update network's second dense layer at an element, over the activation's row. -/
private theorem v43_apply (x0 : (⟨S50000x64, .f32⟩ : BufTy).Contents (Elt Ideal)) (x1 : (⟨S2x800000, .i32⟩ : BufTy).Contents (Elt Ideal)) (x2 : (⟨S800000x300, .f32⟩ : BufTy).Contents (Elt Ideal)) (x3 : (⟨S64x64, .f32⟩ : BufTy).Contents (Elt Ideal)) (x4 : (⟨S64, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (i : S50000x64.Idx) :
    val_main_v43 (F := Ideal) x0 x1 x2 x3 x4 x5 x6 x7 x8 x9 x10 x11 x12 i = dense64 (fun k => val_main_v39 (F := Ideal) x0 x1 x2 x3 x4 x5 x6 x7 x8 x9 x10 (ix2 (i 0) k)) x11 x12 (i 1) := by
  have e1 : ∀ k : Fin 64, lidx_main_v40 i k = ix2 (i 0) k := fun k => funext fun a => Fin.ext (by
    match a with | ⟨0, _⟩ => rfl | ⟨1, _⟩ => rfl)
  have e2 : ∀ k : Fin 64, ridx_main_v40 i k = ix2 k (i 1) := fun k => funext fun a => Fin.ext (by
    match a with | ⟨0, _⟩ => rfl | ⟨1, _⟩ => rfl)
  have e3 : idx_main_v41 (idx_main_v42 i) = ix1 (i 1) := funext fun a => Fin.ext (by
    match a with | ⟨0, _⟩ => rfl)
  rw [val_main_v43_apply, val_main_v40_apply, val_main_v42_apply, val_main_v41_apply]
  simp only [e1, e2, e3, Ideal.addf_def]
  rfl

/-- The reference's first dense layer `x @ w1 + b1` at an element. -/
theorem linear_apply (x0 : (⟨S50000x64, .f32⟩ : BufTy).Contents (Elt Ideal)) (x3 : (⟨S64x64, .f32⟩ : BufTy).Contents (Elt Ideal)) (x4 : (⟨S64, .f32⟩ : BufTy).Contents (Elt Ideal)) (i : S50000x64.Idx) :
    val_main_v7 (F := Ideal) x0 x3 x4 i = dense64 (fun k => x0 (ix2 (i 0) k)) x3 x4 (i 1) := by
  have e1 : ∀ k : Fin 64, lidx_main_v4 i k = ix2 (i 0) k := fun k => funext fun a => Fin.ext (by
    match a with | ⟨0, _⟩ => rfl | ⟨1, _⟩ => rfl)
  have e2 : ∀ k : Fin 64, ridx_main_v4 i k = ix2 k (i 1) := fun k => funext fun a => Fin.ext (by
    match a with | ⟨0, _⟩ => rfl | ⟨1, _⟩ => rfl)
  have e3 : idx_main_v5 (idx_main_v6 i) = ix1 (i 1) := funext fun a => Fin.ext (by
    match a with | ⟨0, _⟩ => rfl)
  rw [val_main_v7_apply, val_main_v4_apply, val_main_v6_apply, val_main_v5_apply]
  simp only [e1, e2, e3, Ideal.addf_def]
  rfl

/-- The reference's filter tensor `ssp (ssp (rbf @ fw1 + fb1) @ fw2 + fb2)` at an element. -/
theorem filter_apply (x2 : (⟨S800000x300, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (i : S800000x64.Idx) :
    val_main_v21 (F := Ideal) x2 x5 x6 x7 x8 i = filterRow (fun k => x2 (ix2 (i 0) k)) x5 x6 x7 x8 (i 1) := by
  rw [v21_apply, v18_apply]
  simp only [v14_apply, v11_apply]
  rfl

/-- The reference's result `ssp (h @ w2 + b2) @ w3 + b3 + x` at an element, `h` the scatter-add stage. -/
theorem update_apply (x0 : (⟨S50000x64, .f32⟩ : BufTy).Contents (Elt Ideal)) (x1 : (⟨S2x800000, .i32⟩ : BufTy).Contents (Elt Ideal)) (x2 : (⟨S800000x300, .f32⟩ : BufTy).Contents (Elt Ideal)) (x3 : (⟨S64x64, .f32⟩ : BufTy).Contents (Elt Ideal)) (x4 : (⟨S64, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (i : S50000x64.Idx) :
    val_main_v44 (F := Ideal) x0 x1 x2 x3 x4 x5 x6 x7 x8 x9 x10 x11 x12 i
      = updateRow (fun k => val_main_v32 (F := Ideal) x0 x1 x2 x3 x4 x5 x6 x7 x8 (ix2 (i 0) k)) (fun k => x0 (ix2 (i 0) k)) x9 x10 x11 x12 (i 1) := by
  have hx : x0 i = x0 (ix2 (i 0) (i 1)) := congrArg x0 (eq_ix2 i)
  rw [val_main_v44_apply, v43_apply, hx]
  simp only [v39_apply, v36_apply, Ideal.addf_def]
  rfl

end Cert.ReferenceIdeal.RefValue

end
-- ==== Proof.RefChain.lean ====
/-
  The reference's result is the kernel program's value.

  Read one element at a time, the reference's result is the node update of its scatter-add stage and of `x`; that
  stage is the scatter-add, at the destination indices, of the gathered rows of its first dense layer times its
  filter tensor; the dense layer and the filter tensor are the row-level functions of the arguments. The start
  indices of the gather (a negative source index counted from the end) and the scatter's operands are the same
  operations of `edge_index` in both programs, so the two values are one term.
-/
import proofs.«404692_j5506148073800_2_alg».proof.Proof.RefRead
import proofs.«404692_j5506148073800_2_alg».proof.Proof.Value
import proofs.«404692_j5506148073800_2_alg».proof.Proof.Gen.KernelIdeal

set_option maxRecDepth 16384

noncomputable section

namespace Cert.ReferenceIdeal.RefValue

open Cert.ReferenceIdeal Cert.ReferenceIdeal.Read Cert.Schnet Idealize.ShloMosaic Idealize.ShloMosaic.ValueIdx
open Cert.KernelIdeal.RunValue (nodeLinear edgeFilter messages nodeUpdate)

/-- The reference's scatter-add stage is the kernel program's aggregated messages. -/
theorem messages_eq (x0 : (⟨S50000x64, .f32⟩ : BufTy).Contents (Elt Ideal)) (x1 : (⟨S2x800000, .i32⟩ : BufTy).Contents (Elt Ideal)) (x2 : (⟨S800000x300, .f32⟩ : BufTy).Contents (Elt Ideal)) (x3 : (⟨S64x64, .f32⟩ : BufTy).Contents (Elt Ideal)) (x4 : (⟨S64, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v32 (F := Ideal) x0 x1 x2 x3 x4 x5 x6 x7 x8 = messages (nodeLinear x0 x3 x4) x1 (edgeFilter x2 x5 x6 x7 x8) := by
  have hlin : val_main_v7 (F := Ideal) x0 x3 x4 = nodeLinear x0 x3 x4 := funext fun i => linear_apply x0 x3 x4 i
  have hfilt : val_main_v21 (F := Ideal) x2 x5 x6 x7 x8 = edgeFilter x2 x5 x6 x7 x8 :=
    funext fun i => filter_apply x2 x5 x6 x7 x8 i
  unfold val_main_v32 val_main_v29 val_main_v28
  rw [hlin, hfilt]
  rfl

/-- THE RESULT: the reference's result array is the kernel program's value of the same arguments. -/
theorem result_eq (x0 : (⟨S50000x64, .f32⟩ : BufTy).Contents (Elt Ideal)) (x1 : (⟨S2x800000, .i32⟩ : BufTy).Contents (Elt Ideal)) (x2 : (⟨S800000x300, .f32⟩ : BufTy).Contents (Elt Ideal)) (x3 : (⟨S64x64, .f32⟩ : BufTy).Contents (Elt Ideal)) (x4 : (⟨S64, .f32⟩ : BufTy).Contents (Elt Ideal)) (x5 : (⟨S300x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v44 (F := Ideal) x0 x1 x2 x3 x4 x5 x6 x7 x8 x9 x10 x11 x12
      = nodeUpdate (messages (nodeLinear x0 x3 x4) x1 (edgeFilter x2 x5 x6 x7 x8)) x0 x9 x10 x11 x12 := by
  funext i
  rw [update_apply, messages_eq]
  rfl

end Cert.ReferenceIdeal.RefValue

end
-- ==== Proof.PreRange.lean ====
/-
  What the precondition says of the source indices.

  The precondition is a conjunction of "all" tests folded left to right; its last two conjuncts are, over the first
  row of `edge_index` (the source index of every edge), `src ≥ -50000` everywhere and `src < 50000` everywhere, as
  signed 32-bit words. So under it every source index, read as a signed integer, lies in `-50000 … 49999`.
-/
import proofs.«404692_j5506148073800_2_alg».proof.Pre_finite_inputs
import Idealize.ShloMosaic.Lib.ValueIdx
import Idealize.ShloMosaic.Lib.Pipeline.Value
import Idealize.ShloMosaic.Lib.StableHlo.Predicate
import Idealize.ShloMosaic.Lib.ReduceAll

noncomputable section

namespace Cert.Pre_finite_inputs.Range

open Cert.Pre_finite_inputs Idealize.ShloMosaic Idealize.ShloMosaic.ValueIdx

variable [Facts]
open Facts

/-- The source index of every edge: the first row of `edge_index`, as a vector. -/
def srcOf (a1 : IVec S2x800000 32) : IVec S800000 32 :=
  shapeCast S800000 (extractStridedSlice S1x800000 ![0, 0] a1 slices_S2x800000_S1x800000_0_0) shapeCasts_S1x800000_S800000

/-- Under the precondition every source index lies in `-50000 … 49999`. -/
theorem src_range (a0 : FVec Ideal S50000x64 .f32) (a1 : IVec S2x800000 32) (a2 : FVec Ideal S800000x300 .f32) (a3 : FVec Ideal S64x64 .f32) (a4 : FVec Ideal S64 .f32) (a5 : FVec Ideal S300x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32)
    (h : fn (F := Ideal) a0 a1 a2 a3 a4 a5 a6 a7 a8 a9 a10 a11 a12 = fun _ => 1#1) (e : S800000.Idx) :
    (-50000 : Int) ≤ (srcOf a1 e).toInt ∧ (srcOf a1 e).toInt < 50000 := by
  have h0 := congrFun h ix0
  -- the printed chain ends in two `and`s: (earlier conjuncts ∧ all (src ≥ -50000)) ∧ all (src < 50000)
  have h1 : IntOp.andi (IntOp.andi _
        (Host.reduce IntOp.andi
          (cmpi .sge (srcOf a1) (broadcastInDim S800000 ![] bcast_S_S800000 (constantI S_ 32 4294917296#32)))
          (constantI S_ 1 1#1) reducesTo_S800000_S_d0 h_S_ ix0))
      (Host.reduce IntOp.andi
        (cmpi .slt (srcOf a1) (broadcastInDim S800000 ![] bcast_S_S800000 (constantI S_ 32 50000#32)))
        (constantI S_ 1 1#1) reducesTo_S800000_S_d0 h_S_ ix0) = 1#1 := h0
  obtain ⟨h12, h3⟩ := IntOp.andi_eq_one.1 h1
  obtain ⟨-, h2⟩ := IntOp.andi_eq_one.1 h12
  haveI : Subsingleton S_.Idx := ⟨fun a b => funext fun d => d.elim0⟩
  have g2 := Host.reduce_andi_all _ _ _ _ _ h2 e
  have g3 := Host.reduce_andi_all _ _ _ _ _ h3 e
  -- each test at an edge compares the source index with the broadcast constant as signed words
  have zlo : (4294917296#32 : BitVec 32).toInt = -50000 := by decide
  have zhi : (50000#32 : BitVec 32).toInt = 50000 := by decide
  have g2' : IntOp.cmpi .sge (srcOf a1 e) 4294917296#32 = 1#1 := g2
  have g3' : IntOp.cmpi .slt (srcOf a1 e) 50000#32 = 1#1 := g3
  simp only [IntOp.cmpi, BitVec.sle_eq_decide, zlo, StableHlo.Predicate.ofBool_eq_one_iff, decide_eq_true_eq] at g2'
  simp only [IntOp.cmpi, BitVec.slt_eq_decide, zhi, StableHlo.Predicate.ofBool_eq_one_iff, decide_eq_true_eq] at g3'
  exact ⟨g2', g3'⟩

end Cert.Pre_finite_inputs.Range

end
-- ==== Proof.lean ====
/-
  A SchNet interaction block as three pallas_calls (a dense layer on node rows; the continuous-filter network on
  edge rows: dense, shifted softplus, dense, shifted softplus; the node update: dense, shifted softplus, dense, plus
  the residual) with the gather by source index, the product with the filter and the scatter-add by destination
  index between them on the host, against the plain jnp reference.

  On the extended reals a change of float format is the identity and a matrix product is the plain sum over the
  contracted axis, so each call's output array is, row by row, the function the reference computes
  (`Cert.Schnet.dense64`, `filterRow`, `updateRow`); the blocks of 5000 rows tile each array. The two programs
  differ in one place: the kernel gathers with `jnp.take`, which fills a row with NaN when its source index is out
  of range, where the reference's `h[src]` clamps. The precondition keeps every source index in `-50000 … 49999`
  (a negative index counts from the end in both programs), where the fill never happens; under it the kernel
  program's result (`RunValue.result_eq`) and the reference's (`RefValue.result_eq`) are one term of the arguments.
  The frames of the two kernel programs are the generated ones; the reference's frame is its run with the result
  dropped; the idealization rewrote nothing, so `preserves` is trivial.
-/
import proofs.«404692_j5506148073800_2_alg».proof.Defs
import proofs.«404692_j5506148073800_2_alg».proof.Proof.Gen.Kernel
import proofs.«404692_j5506148073800_2_alg».proof.Proof.Gen.Kernel.Skeleton
import proofs.«404692_j5506148073800_2_alg».proof.Proof.Gen.Kernel.Launch
import proofs.«404692_j5506148073800_2_alg».proof.Proof.Gen.Kernel.Points
import proofs.«404692_j5506148073800_2_alg».proof.Proof.Gen.Kernel.Frame
import proofs.«404692_j5506148073800_2_alg».proof.Proof.Gen.KernelIdeal
import proofs.«404692_j5506148073800_2_alg».proof.Proof.Gen.KernelIdeal.Skeleton
import proofs.«404692_j5506148073800_2_alg».proof.Proof.Gen.KernelIdeal.Launch
import proofs.«404692_j5506148073800_2_alg».proof.Proof.Gen.KernelIdeal.Points
import proofs.«404692_j5506148073800_2_alg».proof.Proof.Gen.KernelIdeal.Frame
import proofs.«404692_j5506148073800_2_alg».proof.Proof.Gen.ReferenceIdeal
import proofs.«404692_j5506148073800_2_alg».proof.Proof.Gen.Pre_finite_inputs
import proofs.«404692_j5506148073800_2_alg».proof.Proof.Gen.ReferenceIdeal.Run
import proofs.«404692_j5506148073800_2_alg».proof.Proof.Gen.ReferenceIdeal.Read
import proofs.«404692_j5506148073800_2_alg».proof.Proof.KernelRun
import proofs.«404692_j5506148073800_2_alg».proof.Proof.HostChain
import proofs.«404692_j5506148073800_2_alg».proof.Proof.RefChain
import proofs.«404692_j5506148073800_2_alg».proof.Proof.PreRange
import Idealize.ShloMosaic.Adequacy
import Idealize.ShloMosaic.Init

set_option maxRecDepth 16384

noncomputable section

namespace Cert.Proof

open Idealize.ShloMosaic Idealize.SL.Sem
open Cert.KernelIdeal.RunValue (nodeLinear edgeFilter messages nodeUpdate srcVec)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the node update of the aggregated messages: the kernel program by its three calls' arrays
    and the host operations between them, the reference by its stages read at an element; the arguments agree. -/
theorem algebraic : Cert.algebraic_KernelIdeal_ReferenceIdeal := by
  intro m ρ m' ρ' hpre hagree
  have hs : ∀ (c : Dev Cert.KernelIdeal.nD) (e : Cert.KernelIdeal.S800000.Idx),
      (-50000 : Int) ≤ (srcVec (m ((c.tc : Thread Cert.KernelIdeal.nD Cert.KernelIdeal.τ).loc Cert.KernelIdeal.main_arg1)) e).toInt ∧ (srcVec (m ((c.tc : Thread Cert.KernelIdeal.nD Cert.KernelIdeal.τ).loc Cert.KernelIdeal.main_arg1)) e).toInt < 50000 :=
    fun c e => Cert.Pre_finite_inputs.Range.src_range _ _ _ _ _ _ _ _ _ _ _ _ _ (hpre c) e
  refine ⟨fun c => nodeUpdate
      (messages (nodeLinear (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1))
        (edgeFilter (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))))
      (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.RunValue.result_eq m ρ c (hs c)), (h c).2⟩)
      (Cert.KernelIdeal.RunValue.run_main m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v44_eq, Cert.ReferenceIdeal.RefValue.result_eq,
      h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
